-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000 : Shape := ⟨1, ![4000]⟩
abbrev S2x6000 : Shape := ⟨2, ![2, 6000]⟩
abbrev S6000x1 : Shape := ⟨2, ![6000, 1]⟩
abbrev S_ : Shape := ⟨0, ![]⟩

class Facts : Prop where
  bcast_S_S4000 : S_.BroadcastsInDim S4000 (![] : Fin 0 → Fin S4000.rank)
  reducesTo_S4000_S_d0 : S4000.ReducesTo [0] S_
  h_S_ : 0 < S_.numel
  bcast_S_S6000x1 : S_.BroadcastsInDim S6000x1 (![] : Fin 0 → Fin S6000x1.rank)
  reducesTo_S6000x1_S_d0_1 : S6000x1.ReducesTo [0, 1] S_
  bcast_S_S2x6000 : S_.BroadcastsInDim S2x6000 (![] : Fin 0 → Fin S2x6000.rank)
  reducesTo_S2x6000_S_d0_1 : S2x6000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4000 .f32) (main_arg1 : IVec S2x6000 32) (main_arg2 : FVec F S6000x1 .f32) (main_arg3 : IVec S4000 32) : IVec S_ 1 :=
  let main_v0 : FVec F S4000 .f32 := Host.absf main_arg0
  let main_cst : FVec F S_ .f32 := constant S_ .f32 0x7F800000#32
  let main_v1 : FVec F S4000 .f32 := broadcastInDim S4000 ![] bcast_S_S4000 main_cst
  let main_v2 : IVec S4000 1 := cmpf .olt main_v0 main_v1
  let main_c : IVec S_ 1 := constantI S_ 1 1#1
  let main_v3 : IVec S_ 1 := (fun x v => Host.reduce IntOp.andi x v reducesTo_S4000_S_d0 h_S_) main_v2 main_c
  let main_v4 : FVec F S6000x1 .f32 := Host.absf main_arg2
  let main_cst_0 : FVec F S_ .f32 := constant S_ .f32 0x7F800000#32
  let main_v5 : FVec F S6000x1 .f32 := broadcastInDim S6000x1 ![] bcast_S_S6000x1 main_cst_0
  let main_v6 : IVec S6000x1 1 := cmpf .olt main_v4 main_v5
  let main_c_1 : IVec S_ 1 := constantI S_ 1 1#1
  let main_v7 : IVec S_ 1 := (fun x v => Host.reduce IntOp.andi x v reducesTo_S6000x1_S_d0_1 h_S_) main_v6 main_c_1
  let main_v8 : IVec S_ 1 := andi main_v3 main_v7
  let main_c_2 : IVec S_ 32 := constantI S_ 32 0#32
  let main_v9 : IVec S2x6000 32 := broadcastInDim S2x6000 ![] bcast_S_S2x6000 main_c_2
  let main_v10 : IVec S2x6000 1 := cmpi .sge main_arg1 main_v9
  let main_c_3 : IVec S_ 1 := constantI S_ 1 1#1
  let main_v11 : IVec S_ 1 := (fun x v => Host.reduce IntOp.andi x v reducesTo_S2x6000_S_d0_1 h_S_) main_v10 main_c_3
  let main_v12 : IVec S_ 1 := andi main_v8 main_v11
  let main_c_4 : IVec S_ 32 := constantI S_ 32 4000#32
  let main_v13 : IVec S2x6000 32 := broadcastInDim S2x6000 ![] bcast_S_S2x6000 main_c_4
  let main_v14 : IVec S2x6000 1 := cmpi .slt main_arg1 main_v13
  let main_c_5 : IVec S_ 1 := constantI S_ 1 1#1
  let main_v15 : IVec S_ 1 := (fun x v => Host.reduce IntOp.andi x v reducesTo_S2x6000_S_d0_1 h_S_) main_v14 main_c_5
  fn_part1 (F := F) main_v12 main_v15
-- ==== Kernel.lean ====
abbrev S4000 : Shape := ⟨1, ![4000]⟩
abbrev S2x6000 : Shape := ⟨2, ![2, 6000]⟩
abbrev S6000x1 : Shape := ⟨2, ![6000, 1]⟩
abbrev S1x6000 : Shape := ⟨2, ![1, 6000]⟩
abbrev S6000 : Shape := ⟨1, ![6000]⟩
abbrev S_ : Shape := ⟨0, ![]⟩
abbrev S6144x1 : Shape := ⟨2, ![6144, 1]⟩
abbrev S1x4096 : Shape := ⟨2, ![1, 4096]⟩
abbrev S512x1 : Shape := ⟨2, ![512, 1]⟩
abbrev S1x1024 : Shape := ⟨2, ![1, 1024]⟩
abbrev S512x1024 : Shape := ⟨2, ![512, 1024]⟩
abbrev S1024 : Shape := ⟨1, ![1024]⟩
abbrev S1x4000 : Shape := ⟨2, ![1, 4000]⟩
abbrev S1x1 : Shape := ⟨2, ![1, 1]⟩

abbrev nBuf : Space → Nat
  | .hbm => 65
  | .vmem => 12
  | .smem => 0
  | _ => 0

abbrev bufTy : (tb : Table) → Fin (tcTables nBuf tb) → BufTy
  | .hbm, ⟨0, _⟩ => ⟨S4000, .f32⟩
  | .hbm, ⟨1, _⟩ => ⟨S2x6000, .i32⟩
  | .hbm, ⟨2, _⟩ => ⟨S6000x1, .f32⟩
  | .hbm, ⟨3, _⟩ => ⟨S4000, .i32⟩
  | .hbm, ⟨4, _⟩ => ⟨S1x6000, .i32⟩
  | .hbm, ⟨5, _⟩ => ⟨S6000, .i32⟩
  | .hbm, ⟨6, _⟩ => ⟨S6000x1, .i32⟩
  | .hbm, ⟨7, _⟩ => ⟨S1x6000, .i32⟩
  | .hbm, ⟨8, _⟩ => ⟨S6000, .i32⟩
  | .hbm, ⟨9, _⟩ => ⟨S6000x1, .i32⟩
  | .hbm, ⟨10, _⟩ => ⟨S6000, .f32⟩
  | .hbm, ⟨11, _⟩ => ⟨S6000x1, .f32⟩
  | .hbm, ⟨12, _⟩ => ⟨S_, .i32⟩
  | .hbm, ⟨13, _⟩ => ⟨S_, .i32⟩
  | .hbm, ⟨14, _⟩ => ⟨S6144x1, .i32⟩
  | .hbm, ⟨15, _⟩ => ⟨S_, .i32⟩
  | .hbm, ⟨16, _⟩ => ⟨S_, .i32⟩
  | .hbm, ⟨17, _⟩ => ⟨S6144x1, .i32⟩
  | .hbm, ⟨18, _⟩ => ⟨S_, .f32⟩
  | .hbm, ⟨19, _⟩ => ⟨S_, .f32⟩
  | .hbm, ⟨20, _⟩ => ⟨S6144x1, .f32⟩
  | .hbm, ⟨21, _⟩ => ⟨S1x4096, .f32⟩
  | .hbm, ⟨22, _⟩ => ⟨S1x4096, .f32⟩
  | .hbm, ⟨23, _⟩ => ⟨S1x4000, .f32⟩
  | .hbm, ⟨24, _⟩ => ⟨S1x4000, .f32⟩
  | .hbm, ⟨25, _⟩ => ⟨S1x4000, .f32⟩
  | .hbm, ⟨26, _⟩ => ⟨S_, .f32⟩
  | .hbm, ⟨27, _⟩ => ⟨S1x4000, .f32⟩
  | .hbm, ⟨28, _⟩ => ⟨S1x4000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x6000, .i32⟩
  | .hbm, ⟨34, _⟩ => ⟨S6000, .i32⟩
  | .hbm, ⟨35, _⟩ => ⟨S1x6000, .i32⟩
  | .hbm, ⟨36, _⟩ => ⟨S6000, .i32⟩
  | .hbm, ⟨37, _⟩ => ⟨S6000, .i1⟩
  | .hbm, ⟨38, _⟩ => ⟨S_, .f32⟩
  | .hbm, ⟨39, _⟩ => ⟨S_, .f32⟩
  | .hbm, ⟨40, _⟩ => ⟨S6000, .f32⟩
  | .hbm, ⟨41, _⟩ => ⟨S6000, .f32⟩
  | .hbm, ⟨42, _⟩ => ⟨S6000, .f32⟩
  | .hbm, ⟨43, _⟩ => ⟨S6000, .f32⟩
  | .hbm, ⟨44, _⟩ => ⟨S6000, .f32⟩
  | .hbm, ⟨45, _⟩ => ⟨S6000, .f32⟩
  | .hbm, ⟨46, _⟩ => ⟨S6000, .f32⟩
  | .hbm, ⟨47, _⟩ => ⟨S_, .f32⟩
  | .hbm, ⟨48, _⟩ => ⟨S_, .f32⟩
  | .hbm, ⟨49, _⟩ => ⟨S1x4000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x1, .f32⟩
  | .local _ .vmem, ⟨0, _⟩ => ⟨S512x1, .i32⟩
  | .local _ .vmem, ⟨1, _⟩ => ⟨S512x1, .i32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_cst : Ref sig .tc := ⟨.hbm, 18, rfl⟩
abbrev main_call2_v0 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_cst_5 : Ref sig .tc := ⟨.hbm, 39, rfl⟩
abbrev main_call3_v0 : Ref sig .tc := ⟨.hbm, 40, rfl⟩
abbrev main_call3_v1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 12], ![false, false]⟩

def k0_cond2 (i : grid0.Coords) : BitVec 1 :=
  let arg1 : BitVec 32 := BitVec.ofNat 32 (i 1).val
  let c11_i32 : BitVec 32 := 11#32
  let v49 : BitVec 1 := Scalar.cmpi .eq arg1 c11_i32
  let v50 : BitVec 32 := Scalar.extui v49
  let c0_i32_18 : BitVec 32 := 0#32
  let v51 : BitVec 1 := Scalar.cmpi .ne v50 c0_i32_18
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x6000_S1x6000_0_0 : S2x6000.Slices ![0, 0] S1x6000
  shapeCasts_S1x6000_S6000 : S1x6000.ShapeCasts S6000
  shapeCasts_S6000_S6000x1 : S6000.ShapeCasts S6000x1
  slices_S2x6000_S1x6000_1_0 : S2x6000.Slices ![1, 0] S1x6000
  shapeCasts_S6000x1_S6000 : S6000x1.ShapeCasts S6000
  pads_S6000x1_S6144x1_01440_000 : S6000x1.Pads (![0, 0] : Fin 2 → Nat) ![144, 0] ![0, 0] S6144x1
  h_S_ : 0 < S_.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1x1024_d1_w32 : S1x1024.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  broadcasts_S1x1024_S512x1024 : S1x1024.Broadcasts S512x1024
  natLt_1_32 : 1 < 32
  reduces_S512x1024_S1024 : S512x1024.Reduces [0] S1024
  shapeCasts_S1024_S1x1024 : S1024.ShapeCasts S1x1024
  slices_S1x4096_S1x4000_0_0 : S1x4096.Slices ![0, 0] S1x4000
  bcast_S_S1x4000 : S_.BroadcastsInDim S1x4000 (![] : Fin 0 → Fin S1x4000.rank)
  reducesTo_S1x4000_S_d0_1 : S1x4000.ReducesTo [0, 1] S_
  bcast_S_S6000 : S_.BroadcastsInDim S6000 (![] : Fin 0 → Fin S6000.rank)
  reducesTo_S6000_S_d0 : S6000.ReducesTo [0] S_
  reducesTo_S4000_S_d0 : S4000.ReducesTo [0] S_
  shapeCasts_S_S1x1 : S_.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S6144x1.size a
  hwx0_0 : ∀ i : grid0.Coords, EltTy.bits .i32 = 32 ∨ (Rect.block (s := S6144x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S6144x1.size a
  hwx0_1 : ∀ i : grid0.Coords, EltTy.bits .i32 = 32 ∨ (Rect.block (s := S6144x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S6144x1.size a
  hwx0_2 : ∀ i : grid0.Coords, EltTy.bits .f32 = 32 ∨ (Rect.block (s := S6144x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)

variable [Facts₀]

abbrev win0_0 : Pipeline.Window sig grid0 :=
  Pipeline.Window.ofSpec (Memref.whole main_v8) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4000 : Shape := ⟨1, ![4000]⟩
abbrev S2x6000 : Shape := ⟨2, ![2, 6000]⟩
abbrev S6000x1 : Shape := ⟨2, ![6000, 1]⟩
abbrev S_ : Shape := ⟨0, ![]⟩
abbrev S1x6000 : Shape := ⟨2, ![1, 6000]⟩
abbrev S6000 : Shape := ⟨1, ![6000]⟩
abbrev S4000x1 : Shape := ⟨2, ![4000, 1]⟩
abbrev S6000x4000 : Shape := ⟨2, ![6000, 4000]⟩
abbrev S6000x2 : Shape := ⟨2, ![6000, 2]⟩
abbrev S6000x2x1 : Shape := ⟨3, ![6000, 2, 1]⟩
abbrev S6000x2x2 : Shape := ⟨3, ![6000, 2, 2]⟩
abbrev S4000x6000 : Shape := ⟨2, ![4000, 6000]⟩
abbrev S6000x6000 : Shape := ⟨2, ![6000, 6000]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4000, .f32⟩
  | .hbm, ⟨1, _⟩ => ⟨S2x6000, .i32⟩
  | .hbm, ⟨2, _⟩ => ⟨S6000x1, .f32⟩
  | .hbm, ⟨3, _⟩ => ⟨S4000, .i32⟩
  | .hbm, ⟨4, _⟩ => ⟨S_, .f32⟩
  | .hbm, ⟨5, _⟩ => ⟨S6000x1, .f32⟩
  | .hbm, ⟨6, _⟩ => ⟨S6000x1, .f32⟩
  | .hbm, ⟨7, _⟩ => ⟨S_, .f32⟩
  | .hbm, ⟨8, _⟩ => ⟨S6000x1, .f32⟩
  | .hbm, ⟨9, _⟩ => ⟨S6000x1, .f32⟩
  | .hbm, ⟨10, _⟩ => ⟨S6000x1, .f32⟩
  | .hbm, ⟨11, _⟩ => ⟨S1x6000, .i32⟩
  | .hbm, ⟨12, _⟩ => ⟨S6000, .i32⟩
  | .hbm, ⟨13, _⟩ => ⟨S_, .f32⟩
  | .hbm, ⟨14, _⟩ => ⟨S4000x1, .f32⟩
  | .hbm, ⟨15, _⟩ => ⟨S6000x1, .i32⟩
  | .hbm, ⟨16, _⟩ => ⟨S4000x1, .f32⟩
  | .hbm, ⟨17, _⟩ => ⟨S4000x1, .f32⟩
  | .hbm, ⟨18, _⟩ => ⟨S_, .f32⟩
  | .hbm, ⟨19, _⟩ => ⟨S4000x1, .f32⟩
  | .hbm, ⟨20, _⟩ => ⟨S4000x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S6000x4000, .f32⟩
  | .hbm, ⟨27, _⟩ => ⟨S6000, .i32⟩
  | .hbm, ⟨28, _⟩ => ⟨S6000x1, .i32⟩
  | .hbm, ⟨29, _⟩ => ⟨S6000x2, .i32⟩
  | .hbm, ⟨30, _⟩ => ⟨S_, .i32⟩
  | .hbm, ⟨31, _⟩ => ⟨S6000x1, .i32⟩
  | .hbm, ⟨32, _⟩ => ⟨S6000x1, .i1⟩
  | .hbm, ⟨33, _⟩ => ⟨S_, .i32⟩
  | .hbm, ⟨34, _⟩ => ⟨S6000x1, .i32⟩
  | .hbm, ⟨35, _⟩ => ⟨S6000x1, .i32⟩
  | .hbm, ⟨36, _⟩ => ⟨S6000x1, .i32⟩
  | .hbm, ⟨37, _⟩ => ⟨S_, .i32⟩
  | .hbm, ⟨38, _⟩ => ⟨S6000x2, .i32⟩
  | .hbm, ⟨39, _⟩ => ⟨S6000x2, .i1⟩
  | .hbm, ⟨40, _⟩ => ⟨S_, .i32⟩
  | .hbm, ⟨41, _⟩ => ⟨S6000x2, .i32⟩
  | .hbm, ⟨42, _⟩ => ⟨S6000x2, .i32⟩
  | .hbm, ⟨43, _⟩ => ⟨S6000x2, .i32⟩
  | .hbm, ⟨44, _⟩ => ⟨S6000x2, .i32⟩
  | .hbm, ⟨45, _⟩ => ⟨S6000x2x1, .i32⟩
  | .hbm, ⟨46, _⟩ => ⟨S6000x2x1, .i32⟩
  | .hbm, ⟨47, _⟩ => ⟨S6000x2x2, .i32⟩
  | .hbm, ⟨48, _⟩ => ⟨S_, .f32⟩
  | .hbm, ⟨49, _⟩ => ⟨S6000x2, .f32⟩
  | .hbm, ⟨50, _⟩ => ⟨S6000x4000, .f32⟩
  | .hbm, ⟨51, _⟩ => ⟨S4000x6000, .f32⟩
  | .hbm, ⟨52, _⟩ => ⟨S6000x6000, .f32⟩
  | .hbm, ⟨53, _⟩ => ⟨S6000x6000, .i32⟩
  | .hbm, ⟨54, _⟩ => ⟨S_, .i32⟩
  | .hbm, ⟨55, _⟩ => ⟨S6000x6000, .i32⟩
  | .hbm, ⟨56, _⟩ => ⟨S6000x6000, .i32⟩
  | .hbm, ⟨57, _⟩ => ⟨S6000x6000, .i32⟩
  | .hbm, ⟨58, _⟩ => ⟨S6000x6000, .i1⟩
  | .hbm, ⟨59, _⟩ => ⟨S_, .f32⟩
  | .hbm, ⟨60, _⟩ => ⟨S6000x6000, .f32⟩
  | .hbm, ⟨61, _⟩ => ⟨S6000x6000, .f32⟩
  | .hbm, ⟨62, _⟩ => ⟨S1x6000, .f32⟩
  | .hbm, ⟨63, _⟩ => ⟨S1x6000, .f32⟩
  | .hbm, ⟨64, _⟩ => ⟨S6000x1, .f32⟩
  | .hbm, ⟨65, _⟩ => ⟨S1x1, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S1x1, .f32⟩
  | .hbm, ⟨72, _⟩ => ⟨S1x1, .f32⟩
  | .hbm, ⟨73, _⟩ => ⟨S_, .f32⟩
  | .hbm, ⟨74, _⟩ => ⟨S1x1, .f32⟩
  | .hbm, ⟨75, _⟩ => ⟨S1x1, .f32⟩
  | .hbm, ⟨76, _⟩ => ⟨S1x1, .f32⟩
  | .hbm, ⟨77, _⟩ => ⟨S1x1, .f32⟩
  | _, _ => ⟨S4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_cst : Ref sig .tc := ⟨.hbm, 59, rfl⟩
abbrev main_call0_v5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  bcast_S_S6000x1 : S_.BroadcastsInDim S6000x1 (![] : Fin 0 → Fin S6000x1.rank)
  slices_S2x6000_S1x6000_1_0 : S2x6000.Slices ![1, 0] S1x6000
  shapeCasts_S1x6000_S6000 : S1x6000.ShapeCasts S6000
  bcast_S_S4000x1 : S_.BroadcastsInDim S4000x1 (![] : Fin 0 → Fin S4000x1.rank)
  bcast_S6000_S6000x1_0 : S6000.BroadcastsInDim S6000x1 (![0] : Fin 1 → Fin S6000x1.rank)
  reducesTo_S4000x1_S_d0_1 : S4000x1.ReducesTo [0, 1] S_
  h_S_ : 0 < S_.numel
  bcast_S_S6000x4000 : S_.BroadcastsInDim S6000x4000 (![] : Fin 0 → Fin S6000x4000.rank)
  transposes_S2x6000_S6000x2_1_0 : S2x6000.Transposes [1, 0] S6000x2
  bcast_S_S6000x2 : S_.BroadcastsInDim S6000x2 (![] : Fin 0 → Fin S6000x2.rank)
  bcast_S6000x1_S6000x2_0_1 : S6000x1.BroadcastsInDim S6000x2 (![0, 1] : Fin 2 → Fin S6000x2.rank)
  bcast_S6000x2_S6000x2x1_0_1 : S6000x2.BroadcastsInDim S6000x2x1 (![0, 1] : Fin 2 → Fin S6000x2x1.rank)
  concatenates_S6000x2x1_S6000x2x1_S6000x2x2_d2 : Shape.Concatenates [S6000x2x1, S6000x2x1] S6000x2x2 2
  transposes_S6000x4000_S4000x6000_1_0 : S6000x4000.Transposes [1, 0] S4000x6000
  bcast_S_S6000x6000 : S_.BroadcastsInDim S6000x6000 (![] : Fin 0 → Fin S6000x6000.rank)
  transposes_S6000x1_S1x6000_1_0 : S6000x1.Transposes [1, 0] S1x6000
  transposes_S1x6000_S6000x1_1_0 : S1x6000.Transposes [1, 0] S6000x1
  reducesTo_S4000_S_d0 : S4000.ReducesTo [0] S_
  bcast_S_S1x1 : S_.BroadcastsInDim S1x1 (![] : Fin 0 → Fin S1x1.rank)
  scatter_S4000x1_S6000x1_S6000x1_1_0_0_1_wf : ScatterDims.WF S4000x1 S6000x1 S6000x1 [1] [0] [0] 1
  scatter_S6000x4000_S6000x2x2_S6000x2_n_01_01_2_wf : ScatterDims.WF S6000x4000 S6000x2x2 S6000x2 [] [0, 1] [0, 1] 2
  dot_S6000x4000_S4000x6000_S6000x6000_1_0_0_1_n_n_wf : DotDims.WF S6000x4000 S4000x6000 S6000x6000 [1] [0] [0] [1] [] []
  dot_S1x6000_S6000x6000_S1x6000_1_0_0_1_n_n_wf : DotDims.WF S1x6000 S6000x6000 S1x6000 [1] [0] [0] [1] [] []
  dot_S1x6000_S6000x1_S1x1_1_0_0_1_n_n_wf : DotDims.WF S1x6000 S6000x1 S1x1 [1] [0] [0] [1] [] []

variable [Facts₀]

def scatter_S4000x1_S6000x1_S6000x1_1_0_0_1 : ScatterDims S4000x1 S6000x1 S6000x1 where
  updateWindowDims := [1]
  insertedWindowDims := [0]
  scatterDimsToOperandDims := [0]
  indexVectorDim := 1
  wf := scatter_S4000x1_S6000x1_S6000x1_1_0_0_1_wf
def scatter_S6000x4000_S6000x2x2_S6000x2_n_01_01_2 : ScatterDims S6000x4000 S6000x2x2 S6000x2 where
  updateWindowDims := []
  insertedWindowDims := [0, 1]
  scatterDimsToOperandDims := [0, 1]
  indexVectorDim := 2
  wf := scatter_S6000x4000_S6000x2x2_S6000x2_n_01_01_2_wf
def dot_S6000x4000_S4000x6000_S6000x6000_1_0_0_1_n_n : DotDims S6000x4000 S4000x6000 S6000x6000 where
  lhsContracting := [1]
  rhsContracting := [0]
  lhsNonContracting := [0]
  rhsNonContracting := [1]
  lhsBatch := []
  rhsBatch := []
  wf := dot_S6000x4000_S4000x6000_S6000x6000_1_0_0_1_n_n_wf
def dot_S1x6000_S6000x6000_S1x6000_1_0_0_1_n_n : DotDims S1x6000 S6000x6000 S1x6000 where
  lhsContracting := [1]
  rhsContracting := [0]
  lhsNonContracting := [0]
  rhsNonContracting := [1]
  lhsBatch := []
  rhsBatch := []
  wf := dot_S1x6000_S6000x6000_S1x6000_1_0_0_1_n_n_wf
def dot_S1x6000_S6000x1_S1x1_1_0_0_1_n_n : DotDims S1x6000 S6000x1 S1x1 where
  lhsContracting := [1]
  rhsContracting := [0]
  lhsNonContracting := [0]
  rhsNonContracting := [1]
  lhsBatch := []
  rhsBatch := []
  wf := dot_S1x6000_S6000x1_S1x1_1_0_0_1_n_n_wf

class Facts : Prop extends Facts₀ where

variable [Facts]
-- ==== Proof.KBody.lean ====
/-
  What each control case of the kernel body leaves in the two carried accumulators and, at the last edge step, in the two
  output blocks, as the body's pure payloads of the blocks it loads.

  Case A (the first edge step of a node block) clears both accumulators and adds the step's partial sums; case B (a middle
  step) adds them to what the step before left; case C (the last step) does the same and copies both accumulators out.
-/
import proofs.«413957_j26843545600697_1_alg».proof.Proof.Gen.KernelIdeal.Frame
import Idealize.ShloMosaic.Lib.Pipeline.Value
import Idealize.ShloMosaic.Lib.Tactic

noncomputable section

namespace Cert.KernelIdeal.KBody

open Idealize.ShloMosaic Idealize.ShloMosaic.TcCoe Idealize.SL.Sem
open Cert.KernelIdeal Cert.KernelIdeal.Gen

variable {F : FTy → Type} [FloatOps F]

/-- Every block of the body starts at the origin of its buffer. -/
theorem hz : (![0, 0] : Fin 2 → Nat) = fun _ => 0 := funext fun a => by fin_cases a <;> rfl

/-- Case A, the node-sum accumulator: the step's partial sum added to the cleared accumulator. -/
theorem soutA0 (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x1 .i32) (x1 : Vec F S512x1 .i32) (x2 : Vec F S512x1 .f32) :
    sout0_A_0 c i arg2 harg2 arg3 harg3 arg4 harg4 arg5 harg5 arg6 harg6 arg7 harg7 arg8 harg8 hc0 hc1 x0 x1 x2 = k0_pay1 (k0_pay9 i x0 x1 x2 (k0_pay3 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg7.read_unread, harg8.read_unread,
    View.ld_unit_zero (S := S1x1024) hz, View.ld_unit_zero (S := S512x1) hz, View.readCov_unit_zero (S := S1x1024) _ hz]

/-- Case A, the log-score accumulator. -/
theorem soutA1 (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x1 .i32) (x1 : Vec F S512x1 .i32) (x2 : Vec F S512x1 .f32) :
    sout0_A_1 c i arg2 harg2 arg3 harg3 arg4 harg4 arg5 harg5 arg6 harg6 arg7 harg7 arg8 harg8 hc0 hc1 x0 x1 x2 = k0_pay2 (k0_pay8 i x1 x2) (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg7.read_unread, harg8.read_unread,
    View.ld_unit_zero (S := S1x1024) hz, View.ld_unit_zero (S := S512x1) hz, View.readCov_unit_zero (S := S1x1024) _ hz]

/-- Case B, the node-sum accumulator: the step's partial sum added to what the step before left. -/
theorem soutB0 (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x1 .i32) (x1 : Vec F S512x1 .i32) (x2 : Vec F S512x1 .f32) (xs0 xs1 : Vec F S1x1024 .f32) :
    sout0_B_0 c i arg2 harg2 arg3 harg3 arg4 harg4 arg5 harg5 arg6 harg6 arg7 harg7 arg8 harg8 hc0 hc1 x0 x1 x2 xs0 xs1 = k0_pay1 (k0_pay9 i x0 x1 x2 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread,
    View.ld_unit_zero (S := S1x1024) hz, View.ld_unit_zero (S := S512x1) hz, View.readCov_unit_zero (S := S1x1024) _ hz]

/-- Case B, the log-score accumulator. -/
theorem soutB1 (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x1 .i32) (x1 : Vec F S512x1 .i32) (x2 : Vec F S512x1 .f32) (xs0 xs1 : Vec F S1x1024 .f32) :
    sout0_B_1 c i arg2 harg2 arg3 harg3 arg4 harg4 arg5 harg5 arg6 harg6 arg7 harg7 arg8 harg8 hc0 hc1 x0 x1 x2 xs0 xs1 = k0_pay2 (k0_pay8 i x1 x2) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread,
    View.ld_unit_zero (S := S1x1024) hz, View.ld_unit_zero (S := S512x1) hz, View.readCov_unit_zero (S := S1x1024) _ hz]

/-- Case C, the node-sum accumulator. -/
theorem soutC0 (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x1 .i32) (x1 : Vec F S512x1 .i32) (x2 : Vec F S512x1 .f32) (xs0 xs1 : Vec F S1x1024 .f32) :
    sout0_C_0 c i arg2 harg2 arg3 harg3 arg4 harg4 arg5 harg5 arg6 harg6 arg7 harg7 arg8 harg8 hc0 hc1 x0 x1 x2 xs0 xs1 = k0_pay1 (k0_pay9 i x0 x1 x2 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread,
    View.ld_unit_zero (S := S1x1024) hz, View.ld_unit_zero (S := S512x1) hz, View.readCov_unit_zero (S := S1x1024) _ hz]

/-- Case C, the log-score accumulator. -/
theorem soutC1 (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x1 .i32) (x1 : Vec F S512x1 .i32) (x2 : Vec F S512x1 .f32) (xs0 xs1 : Vec F S1x1024 .f32) :
    sout0_C_1 c i arg2 harg2 arg3 harg3 arg4 harg4 arg5 harg5 arg6 harg6 arg7 harg7 arg8 harg8 hc0 hc1 x0 x1 x2 xs0 xs1 = k0_pay2 (k0_pay8 i x1 x2) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread,
    View.ld_unit_zero (S := S1x1024) hz, View.ld_unit_zero (S := S512x1) hz, View.readCov_unit_zero (S := S1x1024) _ hz]

/-- Case C, the node-sum output block: the accumulator as the step leaves it. -/
theorem outC3 (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x1 .i32) (x1 : Vec F S512x1 .i32) (x2 : Vec F S512x1 .f32) (xs0 xs1 : Vec F S1x1024 .f32) :
    out0_C_3 c i arg2 harg2 arg3 harg3 arg4 harg4 arg5 harg5 arg6 harg6 arg7 harg7 arg8 harg8 hc0 hc1 x0 x1 x2 xs0 xs1 = k0_pay1 (k0_pay9 i x0 x1 x2 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread,
    View.ld_unit_zero (S := S1x1024) hz, View.ld_unit_zero (S := S512x1) hz, View.readCov_unit_zero (S := S1x1024) _ hz]

/-- Case C, the log-score output block. -/
theorem outC4 (c : Dev nD) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x1 .i32) (x1 : Vec F S512x1 .i32) (x2 : Vec F S512x1 .f32) (xs0 xs1 : Vec F S1x1024 .f32) :
    out0_C_4 c i arg2 harg2 arg3 harg3 arg4 harg4 arg5 harg5 arg6 harg6 arg7 harg7 arg8 harg8 hc0 hc1 x0 x1 x2 xs0 xs1 = k0_pay2 (k0_pay8 i x1 x2) xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread,
    View.ld_unit_zero (S := S1x1024) hz, View.ld_unit_zero (S := S512x1) hz, View.readCov_unit_zero (S := S1x1024) _ hz]

end Cert.KernelIdeal.KBody

end
-- ==== Proof.Spec.lean ====
/-
  The two programs' results as closed formulas over the extended reals.

  An edge list of 6000 edges over 4000 nodes: edge `e` joins the nodes `src e` and `dst e` (rows 0 and 1 of the index
  array) and carries the weight `pw e`. Both programs return
      mean over the nodes n of exp (ls n) * 9600  +  200 * (L / ng),
  where `ls n` sums the messages `log (1 - pw e + eps)` of the edges whose target is `n`, `ng` is the number of graphs
  (read off the batch array the same way by both), and `L` is the strictly upper part of the quadratic form
  `p (H Hᵀ) pᵀ` of the edge-node incidence matrix `H`. The reference forms `L` from the matrices themselves (`l3R`); the
  kernel forms the node sums `q n = ∑ e, H e n * pw e` and takes `(∑ n, (q n)² - ∑ e, deg e * (pw e)²) / 2`, `deg e` the
  number of distinct end points of `e` (`resK`). The kernel accumulates `q` and `ls` over an edge list padded to 6144
  entries, 512 at a time (`accQ`, `accL`: the sums over the first `k` padded edges).
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

/-- The index array: row 0 the sources, row 1 the targets. -/
abbrev SEi : Shape := ⟨2, ![2, 6000]⟩
/-- The weights, one column. -/
abbrev SEf : Shape := ⟨2, ![6000, 1]⟩
/-- The batch array. -/
abbrev SBt : Shape := ⟨1, ![4000]⟩
/-- A padded column of 6144 entries. -/
abbrev SPad : Shape := ⟨2, ![6144, 1]⟩
/-- A scalar. -/
abbrev S0 : Shape := ⟨0, ![]⟩

/-- The literals, as the extended reals their words denote. -/
def zero : EReal := Ideal.ofBits .f32 0x00000000#32
def one : EReal := Ideal.ofBits .f32 0x3F800000#32
def two : EReal := Ideal.ofBits .f32 0x40000000#32
def half : EReal := Ideal.ofBits .f32 0x3F000000#32
def eps : EReal := Ideal.ofBits .f32 0x358637BD#32
def c9600 : EReal := Ideal.ofBits .f32 0x46160000#32
def c4000 : EReal := Ideal.ofBits .f32 0x457A0000#32
def c200 : EReal := Ideal.ofBits .f32 0x43480000#32

/-- Two words compared: 1 where they are equal, 0 where they are not. -/
def ind (a b : BitVec 32) : EReal := if a = b then 1 else 0

/-- The message of an edge of weight `p`. -/
def lmsg (p : EReal) : EReal := Ideal.log (one - p + eps)

/-! ## The kernel's accumulators, over the padded edge list -/

section padded

variable (sp dp : IVec SPad 32) (pp : FVec Ideal SPad .f32)

/-- Padded edge `e`'s share of node `col`'s sum `q`: its weight where `col` is one of its end points. -/
def termQ (e col : ℕ) : EReal :=
  if h : e < 6144 then
    min (ind (sp (ix2 ⟨e, h⟩ (0 : Fin 1))) (BitVec.ofNat 32 col) + ind (dp (ix2 ⟨e, h⟩ (0 : Fin 1))) (BitVec.ofNat 32 col)) one
      * pp (ix2 ⟨e, h⟩ (0 : Fin 1))
  else 0

/-- Padded edge `e`'s share of node `col`'s log-score: its message where `col` is its target. -/
def termL (e col : ℕ) : EReal :=
  if h : e < 6144 then ind (dp (ix2 ⟨e, h⟩ (0 : Fin 1))) (BitVec.ofNat 32 col) * lmsg (pp (ix2 ⟨e, h⟩ (0 : Fin 1))) else 0

/-- Node `col`'s sum `q` over the first `k` padded edges. -/
def accQ (k col : ℕ) : EReal := ∑ e ∈ Finset.range k, termQ sp dp pp e col

/-- Node `col`'s log-score over the first `k` padded edges. -/
def accL (k col : ℕ) : EReal := ∑ e ∈ Finset.range k, termL dp pp e col

end padded

/-! ## The results over the arguments -/

section args

variable (ei : IVec SEi 32) (ef : FVec Ideal SEf .f32)

/-- Edge `e`'s source, target and weight. -/
def src (e : Fin 6000) : BitVec 32 := ei (ix2 (0 : Fin 2) e)
def dst (e : Fin 6000) : BitVec 32 := ei (ix2 (1 : Fin 2) e)
def pw (e : Fin 6000) : EReal := ef (ix2 e (0 : Fin 1))

/-- The number of graphs as both programs read it off the batch array: its signed maximum plus one, as a real. -/
def ngOf (bt : IVec SBt 32) (h : SBt.ReducesTo [0] S0) (h0 : 0 < S0.numel) : EReal :=
  sitofp (F := Ideal) .f32 (addi (Host.reduce IntOp.maxsi bt (constantI S0 32 2147483648#32) h h0) (constantI S0 32 1#32)) ix0

/-! ### The kernel's form -/

/-- Node `n`'s sum: the weights of the edges that touch it. -/
def qK (n : ℕ) : EReal :=
  ∑ e : Fin 6000, min (ind (src ei e) (BitVec.ofNat 32 n) + ind (dst ei e) (BitVec.ofNat 32 n)) one * pw ef e

/-- Node `n`'s log-score: the messages of the edges that end in it. -/
def lsK (n : ℕ) : EReal := ∑ e : Fin 6000, ind (dst ei e) (BitVec.ofNat 32 n) * lmsg (pw ef e)

/-- The number of distinct end points of an edge: 1 for a self loop, else 2. -/
def degK (e : Fin 6000) : EReal := if src ei e = dst ei e then one else two

/-- The kernel's result. -/
def resK (ng : EReal) : EReal :=
  Ideal.div (zero + ∑ n : Fin 4000, Ideal.exp (lsK ei ef n.val) * c9600) c4000
    + c200 * Ideal.div (((zero + ∑ n : Fin 4000, qK ei ef n.val * qK ei ef n.val)
        - (zero + ∑ e : Fin 6000, degK ei e * (pw ef e * pw ef e))) * half) ng

/-! ### The reference's form -/

/-- The incidence matrix: 1 where node `n` is an end point of edge `e`. -/
def hR (e : Fin 6000) (n : Fin 4000) : EReal :=
  if src ei e = BitVec.ofNat 32 n.val ∨ dst ei e = BitVec.ofNat 32 n.val then one else zero

/-- `H Hᵀ`: the number of end points two edges share. -/
def aR (e f : Fin 6000) : EReal := ∑ n : Fin 4000, hR ei e n * hR ei f n

/-- Its strictly upper part. -/
def tR (e f : Fin 6000) : EReal := if f.val ≤ e.val then zero else aR ei e f

/-- The quadratic form `(p T) pᵀ`. -/
def l3R : EReal := ∑ f : Fin 6000, (∑ e : Fin 6000, pw ef e * tR ei e f) * pw ef f

/-- Node `n`'s log-score: the messages scattered onto it. -/
def lsR (n : Fin 4000) : EReal :=
  zero + ∑ e : Fin 6000, if dst ei e = BitVec.ofNat 32 n.val then lmsg (pw ef e) else 0

/-- The reference's result. -/
def resR (ng : EReal) : EReal :=
  Ideal.div (zero + ∑ n : Fin 4000, Ideal.exp (lsR ei ef n) * c9600) c4000 + c200 * Ideal.div (l3R ei ef) ng

/-- Every index names a node. -/
def InRange : Prop := ∀ (r : Fin 2) (e : Fin 6000), 0 ≤ (ei (ix2 r e)).toInt ∧ (ei (ix2 r e)).toInt < 4000

/-- Every weight is a real number. -/
def Finite : Prop := ∀ e : Fin 6000, ∃ x : ℝ, pw ef e = (x : EReal)

end args

end Cert.Spec

end
-- ==== Proof.KPay.lean ====
/-
  The kernel body's payloads read at one lane, over the extended reals.

  At grid point `i` lane `jj` of the 1024-lane row stands for node `1024 * i₀ + jj`. The node-sum payload adds to the
  accumulator the weights of the step's 512 edges that touch that node; the log-score payload adds the messages of those
  that end in it.
-/
import proofs.«413957_j26843545600697_1_alg».proof.Proof.Gen.KernelIdeal.Skeleton
import proofs.«413957_j26843545600697_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KPay

open Idealize.ShloMosaic Idealize.ShloMosaic.ValueIdx
open Cert.KernelIdeal Cert.KernelIdeal.Gen

/-- The node lane `jj` stands for at grid point `i`, as a word. -/
def nodeAt (i : grid0.Coords) (jj : Fin 1024) : BitVec 32 := BitVec.ofNat 32 ((i 0).val * 1024 + jj.val)

/-- A column broadcast along the rows: entry `(p, c)` of the result is the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The cleared accumulators hold zero. -/
theorem pay3_apply (j : S1x1024.Idx) : k0_pay3 (F := Ideal) j = 0 := by
  unfold k0_pay3
  rw [shapeCast_self]
  exact Ideal.ofBits_zero_f32

theorem pay4_apply (j : S1x1024.Idx) : k0_pay4 (F := Ideal) j = 0 := by
  unfold k0_pay4
  rw [shapeCast_self]
  exact Ideal.ofBits_zero_f32

/-- The node ids of a row of lanes: lane `jj` at grid point `i` holds `1024 * i₀ + jj`. -/
theorem pay5_apply (i : grid0.Coords) (u : Fin 1) (jj : Fin 1024) : k0_pay5 i (ix2 u jj) = nodeAt i jj := by
  unfold k0_pay5 nodeAt
  show BitVec.ofNat 32 (i 0).val * 1024#32 + BitVec.ofNat 32 (0 * 1024 + jj.val) = _
  rw [Nat.zero_mul, Nat.zero_add, BitVec.ofNat_add, BitVec.ofNat_mul]

/-- Two words compared, as a float: 1 where they are equal, 0 where they are not. -/
theorem ind_word (a b : BitVec 32) :
    FloatOps.sitofp (F := Ideal) .f32 ((IntOp.cmpi .eq a b).setWidth 32) = Cert.Spec.ind a b := by
  unfold Cert.Spec.ind IntOp.cmpi
  show (((BitVec.setWidth 32 (BitVec.ofBool (a == b))).toInt : ℝ) : EReal) = _
  by_cases h : a = b
  · subst h
    simp
  · have hb : (a == b) = false := beq_eq_false_iff_ne.mpr h
    rw [hb, if_neg h]
    simp

/-- The indicator block of a column of node words: entry `(r, jj)` is 1 where row `r`'s word is lane `jj`'s node, else 0. -/
theorem pay7_apply (i : grid0.Coords) (v9 : Vec Ideal S512x1 .i32) (r : Fin 512) (jj : Fin 1024) :
    k0_pay7 (F := Ideal) i v9 (ix2 r jj) = Cert.Spec.ind (v9 (ix2 r (0 : Fin 1))) (nodeAt i jj) := by
  unfold k0_pay7
  refine Eq.trans ?_ (ind_word (v9 (ix2 r (0 : Fin 1))) (nodeAt i jj))
  show FloatOps.sitofp (F := Ideal) .f32 ((IntOp.cmpi .eq
      (broadcastTo S512x1024 (shapeCast S512x1 v9 shapeCasts_S512x1_S512x1) broadcasts_S512x1_S512x1024 (ix2 r jj))
      (broadcastTo S512x1024 (k0_pay5 i) broadcasts_S1x1024_S512x1024 (ix2 r jj))).setWidth 32) = _
  rw [broadcastTo_a1_ab_apply, broadcastTo_1b_ab_apply, shapeCast_self, pay5_apply]

/-- The weight column as the body reads it is the column itself. -/
theorem pay6_eq (v : Vec Ideal S512x1 .f32) : k0_pay6 (F := Ideal) v = v := by
  unfold k0_pay6
  rw [shapeCast_self]

/-- The sum over the 512 rows of a block, read at a lane. -/
theorem rowsum_apply (v : FVec Ideal S512x1024 .f32) (hφ : FKind.Formats .f32)
    (hacc : (0x00000000#32 : BitVec 32) = 0x00000000#32) (jj : Fin 1024) :
    multiReduction (F := Ideal) .add [0] S1024 v 0x00000000#32 reduces_S512x1024_S1024 hφ hacc (ix1 jj)
      = ∑ r : Fin 512, v (ix2 r jj) := by
  refine (Ideal.multiReduction_add_single v _ reduces_S512x1024_S1024 hφ hacc (ix1 jj)).trans ?_
  refine Finset.sum_congr rfl fun r _ => congrArg v ?_
  funext a
  match a with
  | ⟨0, _⟩ => rfl
  | ⟨1, _⟩ => rfl

/-- The node-sum payload at a lane: the accumulator plus the weights of the step's edges that touch the lane's node. -/
theorem pay9_apply (i : grid0.Coords) (x0 x1 : Vec Ideal S512x1 .i32) (x2 : Vec Ideal S512x1 .f32)
    (a : Vec Ideal S1x1024 .f32) (jj : Fin 1024) :
    k0_pay1 (F := Ideal) (k0_pay9 i x0 x1 x2 a) (ix2 (0 : Fin 1) jj)
      = a (ix2 (0 : Fin 1) jj) + ∑ r : Fin 512,
          min (Cert.Spec.ind (x0 (ix2 r (0 : Fin 1))) (nodeAt i jj) + Cert.Spec.ind (x1 (ix2 r (0 : Fin 1))) (nodeAt i jj)) Cert.Spec.one
            * x2 (ix2 r (0 : Fin 1)) := by
  unfold k0_pay1
  rw [shapeCast_self]
  unfold k0_pay9
  rw [addf_apply, shapeCast_a_1a_apply, rowsum_apply]
  refine congrArg (a (ix2 (0 : Fin 1) jj) + ·) (Finset.sum_congr rfl fun r _ => ?_)
  rw [mulf_apply, minimumf_apply, addf_apply, broadcast_apply, broadcastTo_a1_ab_apply, pay7_apply, pay6_eq]
  have e0 := pay7_apply i x0 r jj
  unfold k0_pay7 at e0
  rw [e0]
  rfl

/-- The log-score payload at a lane: the accumulator plus the messages of the step's edges that end in the lane's node. -/
theorem pay8_apply (i : grid0.Coords) (x1 : Vec Ideal S512x1 .i32) (x2 : Vec Ideal S512x1 .f32)
    (a : Vec Ideal S1x1024 .f32) (jj : Fin 1024) :
    k0_pay2 (F := Ideal) (k0_pay8 i x1 x2) a (ix2 (0 : Fin 1) jj)
      = a (ix2 (0 : Fin 1) jj) + ∑ r : Fin 512,
          Cert.Spec.ind (x1 (ix2 r (0 : Fin 1))) (nodeAt i jj) * Cert.Spec.lmsg (x2 (ix2 r (0 : Fin 1))) := by
  unfold k0_pay2
  rw [shapeCast_self]
  unfold k0_pay8
  rw [addf_apply, shapeCast_a_1a_apply, rowsum_apply]
  refine congrArg (a (ix2 (0 : Fin 1) jj) + ·) (Finset.sum_congr rfl fun r _ => ?_)
  rw [mulf_apply, broadcastTo_a1_ab_apply, pay7_apply, pay6_eq]
  rfl

end Cert.KernelIdeal.KPay

end
-- ==== Proof.KFinal.lean ====
/-
  What the kernel's two result arrays hold when the region ends.

  The grid walks the four node blocks and, inside each, the twelve edge steps. After edge step `k` of node block `n` the
  two carried accumulators hold, lane by lane, the node sums and log-scores over the first `512 * (k + 1)` padded edges
  (by induction on the step: the first step clears, every step adds its 512 edges). The last step of a block writes both
  out, so the result arrays end holding the sums over all 6144 padded edges, column by column.
-/
import proofs.«413957_j26843545600697_1_alg».proof.Proof.KBody
import proofs.«413957_j26843545600697_1_alg».proof.Proof.KPay
import Idealize.ShloMosaic.Lib.Pipeline.Value
import Idealize.ShloMosaic.Lib.ValueIdx

noncomputable section

open scoped BigOperators

namespace Cert.KernelIdeal.KFinal

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The padded sources, targets and weights as the region finds them. -/
abbrev spad (c : Dev nD) : IVec Cert.Spec.SPad 32 := V m c main_v8
abbrev dpad (c : Dev nD) : IVec Cert.Spec.SPad 32 := V m c main_v9
abbrev ppad (c : Dev nD) : FVec Ideal Cert.Spec.SPad .f32 := V m c main_v10

/-! ## The grid: which block each window holds at a point -/

/-- The windows' block indices and the node-block coordinate, decided over the grid: point `t` is edge step `t % 12` of
    node block `t / 12`; the inputs' block index is (edge step, 0), the outputs' is (0, node block). -/
theorem idx_facts : ∀ t : Fin cfg0.N,
    win0_0.index t (0 : Fin 2) = t.val % 12 ∧ win0_0.index t (1 : Fin 2) = 0
    ∧ win0_1.index t (0 : Fin 2) = t.val % 12 ∧ win0_1.index t (1 : Fin 2) = 0
    ∧ win0_2.index t (0 : Fin 2) = t.val % 12 ∧ win0_2.index t (1 : Fin 2) = 0
    ∧ win0_3.index t (0 : Fin 2) = 0 ∧ win0_3.index t (1 : Fin 2) = t.val / 12
    ∧ win0_4.index t (0 : Fin 2) = 0 ∧ win0_4.index t (1 : Fin 2) = t.val / 12
    ∧ ((grid0.coords t) 0).val = t.val / 12 :=
  (by decide +kernel : ∀ t : Fin grid0.N, _)

/-- The same at the point numbered `n`. -/
theorem idx_nat (n : ℕ) (h : n < cfg0.N) :
    win0_0.index ⟨n, h⟩ (0 : Fin 2) = n % 12 ∧ win0_0.index ⟨n, h⟩ (1 : Fin 2) = 0
    ∧ win0_1.index ⟨n, h⟩ (0 : Fin 2) = n % 12 ∧ win0_1.index ⟨n, h⟩ (1 : Fin 2) = 0
    ∧ win0_2.index ⟨n, h⟩ (0 : Fin 2) = n % 12 ∧ win0_2.index ⟨n, h⟩ (1 : Fin 2) = 0
    ∧ win0_3.index ⟨n, h⟩ (0 : Fin 2) = 0 ∧ win0_3.index ⟨n, h⟩ (1 : Fin 2) = n / 12
    ∧ win0_4.index ⟨n, h⟩ (0 : Fin 2) = 0 ∧ win0_4.index ⟨n, h⟩ (1 : Fin 2) = n / 12
    ∧ ((grid0.coords ⟨n, h⟩) 0).val = n / 12 :=
  idx_facts ⟨n, h⟩

/-- The grid has 48 points. -/
theorem lt_48 {n : ℕ} (h : n < cfg0.N) : n < 48 := lt_of_lt_of_eq h (show cfg0.N = 48 from N_0)

/-! ## The input blocks: 512 consecutive rows of the padded columns -/

/-- The blocks of sources, targets and weights the body loads at a point. -/
abbrev sblk (c : Dev nD) (t : Fin cfg0.N) : Vec Ideal S512x1 .i32 := iblk m c 0 t
abbrev dblk (c : Dev nD) (t : Fin cfg0.N) : Vec Ideal S512x1 .i32 := iblk m c 1 t
abbrev pblk (c : Dev nD) (t : Fin cfg0.N) : Vec Ideal S512x1 .f32 := iblk m c 2 t

/-- Row `r` of the source block at edge step `n % 12` is row `512 * (n % 12) + r` of the padded sources (a block's
    coordinate is block index × block size + the coordinate inside the block). -/
theorem sblk_apply (c : Dev nD) (n : ℕ) (h : n < cfg0.N) (r : Fin 512) (hr : 512 * (n % 12) + r.val < 6144) :
    sblk m c ⟨n, h⟩ (ix2 r (0 : Fin 1)) = spad m c (ix2 ⟨512 * (n % 12) + r.val, hr⟩ (0 : Fin 1)) := by
  obtain ⟨e0, e1, -⟩ := idx_nat n h
  unfold sblk iblk
  rw [View.read_apply]
  show V m c main_v8 _ = V m c main_v8 _
  congr 1
  funext a
  apply Fin.ext
  match a with
  | ⟨0, _⟩ => show win0_0.index ⟨n, h⟩ 0 * 512 + 1 * r.val = 512 * (n % 12) + r.val; rw [e0]; omega
  | ⟨1, _⟩ => show win0_0.index ⟨n, h⟩ 1 * 1 + 1 * 0 = 0; rw [e1]

/-- The same for the targets. -/
theorem dblk_apply (c : Dev nD) (n : ℕ) (h : n < cfg0.N) (r : Fin 512) (hr : 512 * (n % 12) + r.val < 6144) :
    dblk m c ⟨n, h⟩ (ix2 r (0 : Fin 1)) = dpad m c (ix2 ⟨512 * (n % 12) + r.val, hr⟩ (0 : Fin 1)) := by
  obtain ⟨-, -, e0, e1, -⟩ := idx_nat n h
  unfold dblk iblk
  rw [View.read_apply]
  show V m c main_v9 _ = V m c main_v9 _
  congr 1
  funext a
  apply Fin.ext
  match a with
  | ⟨0, _⟩ => show win0_1.index ⟨n, h⟩ 0 * 512 + 1 * r.val = 512 * (n % 12) + r.val; rw [e0]; omega
  | ⟨1, _⟩ => show win0_1.index ⟨n, h⟩ 1 * 1 + 1 * 0 = 0; rw [e1]

/-- The same for the weights. -/
theorem pblk_apply (c : Dev nD) (n : ℕ) (h : n < cfg0.N) (r : Fin 512) (hr : 512 * (n % 12) + r.val < 6144) :
    pblk m c ⟨n, h⟩ (ix2 r (0 : Fin 1)) = ppad m c (ix2 ⟨512 * (n % 12) + r.val, hr⟩ (0 : Fin 1)) := by
  obtain ⟨-, -, -, -, e0, e1, -⟩ := idx_nat n h
  unfold pblk iblk
  rw [View.read_apply]
  show V m c main_v10 _ = V m c main_v10 _
  congr 1
  funext a
  apply Fin.ext
  match a with
  | ⟨0, _⟩ => show win0_2.index ⟨n, h⟩ 0 * 512 + 1 * r.val = 512 * (n % 12) + r.val; rw [e0]; omega
  | ⟨1, _⟩ => show win0_2.index ⟨n, h⟩ 1 * 1 + 1 * 0 = 0; rw [e1]

/-- Lane `jj` at a point of node block `n / 12` stands for node `1024 * (n / 12) + jj`. -/
theorem nodeAt_eq (n : ℕ) (h : n < cfg0.N) (jj : Fin 1024) :
    KPay.nodeAt (grid0.coords ⟨n, h⟩) jj = BitVec.ofNat 32 (1024 * (n / 12) + jj.val) := by
  obtain ⟨-, -, -, -, -, -, -, -, -, -, e⟩ := idx_nat n h
  unfold KPay.nodeAt
  rw [e, Nat.mul_comm]

/-! ## One edge step: the next 512 padded edges -/

/-- The node-sum payload at a lane adds to the accumulator the shares of the step's 512 padded edges. -/
theorem stepQ (c : Dev nD) (n : ℕ) (h : n < cfg0.N) (a : Vec Ideal S1x1024 .f32) (jj : Fin 1024) :
    k0_pay1 (F := Ideal) (k0_pay9 (grid0.coords ⟨n, h⟩) (sblk m c ⟨n, h⟩) (dblk m c ⟨n, h⟩) (pblk m c ⟨n, h⟩) a) (ix2 (0 : Fin 1) jj)
      = a (ix2 (0 : Fin 1) jj) + ∑ e ∈ Finset.range 512,
          Cert.Spec.termQ (spad m c) (dpad m c) (ppad m c) (512 * (n % 12) + e) (1024 * (n / 12) + jj.val) := by
  have hn := lt_48 h
  refine (KPay.pay9_apply (grid0.coords ⟨n, h⟩) (sblk m c ⟨n, h⟩) (dblk m c ⟨n, h⟩) (pblk m c ⟨n, h⟩) a jj).trans ?_
  congr 1
  rw [← Fin.sum_univ_eq_sum_range (fun e => Cert.Spec.termQ (spad m c) (dpad m c) (ppad m c) (512 * (n % 12) + e) (1024 * (n / 12) + jj.val)) 512]
  refine Finset.sum_congr rfl fun r _ => ?_
  have hr : 512 * (n % 12) + r.val < 6144 := by have := r.isLt; omega
  rw [sblk_apply m c n h r hr, dblk_apply m c n h r hr, pblk_apply m c n h r hr, nodeAt_eq n h jj]
  unfold Cert.Spec.termQ
  rw [dif_pos hr]

/-- The log-score payload at a lane adds to the accumulator the shares of the step's 512 padded edges. -/
theorem stepL (c : Dev nD) (n : ℕ) (h : n < cfg0.N) (a : Vec Ideal S1x1024 .f32) (jj : Fin 1024) :
    k0_pay2 (F := Ideal) (k0_pay8 (grid0.coords ⟨n, h⟩) (dblk m c ⟨n, h⟩) (pblk m c ⟨n, h⟩)) a (ix2 (0 : Fin 1) jj)
      = a (ix2 (0 : Fin 1) jj) + ∑ e ∈ Finset.range 512,
          Cert.Spec.termL (dpad m c) (ppad m c) (512 * (n % 12) + e) (1024 * (n / 12) + jj.val) := by
  have hn := lt_48 h
  refine (KPay.pay8_apply (grid0.coords ⟨n, h⟩) (dblk m c ⟨n, h⟩) (pblk m c ⟨n, h⟩) a jj).trans ?_
  congr 1
  rw [← Fin.sum_univ_eq_sum_range (fun e => Cert.Spec.termL (dpad m c) (ppad m c) (512 * (n % 12) + e) (1024 * (n / 12) + jj.val)) 512]
  refine Finset.sum_congr rfl fun r _ => ?_
  have hr : 512 * (n % 12) + r.val < 6144 := by have := r.isLt; omega
  rw [dblk_apply m c n h r hr, pblk_apply m c n h r hr, nodeAt_eq n h jj]
  unfold Cert.Spec.termL
  rw [dif_pos hr]

/-! ## The carried accumulators, point by point -/

/-- What the node-sum and log-score accumulators hold after the point numbered `n`. -/
abbrev qAt (c : Dev nD) (n : ℕ) (h : n < cfg0.N) : Vec Ideal S1x1024 .f32 := (outsAt0 m c n h).2.2.1
abbrev lAt (c : Dev nD) (n : ℕ) (h : n < cfg0.N) : Vec Ideal S1x1024 .f32 := (outsAt0 m c n h).2.2.2

/-- The point before is a point. -/
theorem pred_lt {n : ℕ} (h : n < cfg0.N) : n - 1 < cfg0.N := Nat.lt_of_le_of_lt (Nat.sub_le _ _) h

/-- At the first edge step of a node block the node-sum accumulator is cleared and takes the step's sums. -/
theorem qAt_first (c : Dev nD) (n : ℕ) (h : n < cfg0.N) (h0 : n % 12 = 0) :
    qAt m c n h = k0_pay1 (k0_pay9 (grid0.coords ⟨n, h⟩) (sblk m c ⟨n, h⟩) (dblk m c ⟨n, h⟩) (pblk m c ⟨n, h⟩) (k0_pay3 (F := Ideal))) := by
  have h1 : ¬n % 12 = 11 := by omega
  show (outsAt0 m c (⟨n, h⟩ : Fin cfg0.N).val (⟨n, h⟩ : Fin cfg0.N).isLt).2.2.1 = _
  rw [outsAt0_A m c ⟨n, h⟩ h0 h1]
  dsimp only
  exact KBody.soutA0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- The same for the log-score accumulator. -/
theorem lAt_first (c : Dev nD) (n : ℕ) (h : n < cfg0.N) (h0 : n % 12 = 0) :
    lAt m c n h = k0_pay2 (k0_pay8 (grid0.coords ⟨n, h⟩) (dblk m c ⟨n, h⟩) (pblk m c ⟨n, h⟩)) (k0_pay4 (F := Ideal)) := by
  have h1 : ¬n % 12 = 11 := by omega
  show (outsAt0 m c (⟨n, h⟩ : Fin cfg0.N).val (⟨n, h⟩ : Fin cfg0.N).isLt).2.2.2 = _
  rw [outsAt0_A m c ⟨n, h⟩ h0 h1]
  dsimp only
  exact KBody.soutA1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- At every later edge step the node-sum accumulator takes the step's sums on top of what the step before left. -/
theorem qAt_next (c : Dev nD) (n : ℕ) (h : n < cfg0.N) (h0 : ¬n % 12 = 0) :
    qAt m c n h = k0_pay1 (k0_pay9 (grid0.coords ⟨n, h⟩) (sblk m c ⟨n, h⟩) (dblk m c ⟨n, h⟩) (pblk m c ⟨n, h⟩) (qAt m c (n - 1) (pred_lt h))) := by
  show (outsAt0 m c (⟨n, h⟩ : Fin cfg0.N).val (⟨n, h⟩ : Fin cfg0.N).isLt).2.2.1 = _
  by_cases h1 : n % 12 = 11
  · rw [outsAt0_C m c ⟨n, h⟩ h0 h1]
    dsimp only
    exact KBody.soutC0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (outsAt0 m c (n - 1) (pred_lt h)).2.2.1 (outsAt0 m c (n - 1) (pred_lt h)).2.2.2
  · rw [outsAt0_B m c ⟨n, h⟩ h0 h1]
    dsimp only
    exact KBody.soutB0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (outsAt0 m c (n - 1) (pred_lt h)).2.2.1 (outsAt0 m c (n - 1) (pred_lt h)).2.2.2

/-- The same for the log-score accumulator. -/
theorem lAt_next (c : Dev nD) (n : ℕ) (h : n < cfg0.N) (h0 : ¬n % 12 = 0) :
    lAt m c n h = k0_pay2 (k0_pay8 (grid0.coords ⟨n, h⟩) (dblk m c ⟨n, h⟩) (pblk m c ⟨n, h⟩)) (lAt m c (n - 1) (pred_lt h)) := by
  show (outsAt0 m c (⟨n, h⟩ : Fin cfg0.N).val (⟨n, h⟩ : Fin cfg0.N).isLt).2.2.2 = _
  by_cases h1 : n % 12 = 11
  · rw [outsAt0_C m c ⟨n, h⟩ h0 h1]
    dsimp only
    exact KBody.soutC1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (outsAt0 m c (n - 1) (pred_lt h)).2.2.1 (outsAt0 m c (n - 1) (pred_lt h)).2.2.2
  · rw [outsAt0_B m c ⟨n, h⟩ h0 h1]
    dsimp only
    exact KBody.soutB1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (outsAt0 m c (n - 1) (pred_lt h)).2.2.1 (outsAt0 m c (n - 1) (pred_lt h)).2.2.2

/-! ## The invariant: after edge step `k` of a node block, the sums over the first `512 * (k + 1)` padded edges -/

/-- After the point numbered `n` the node-sum accumulator holds, lane by lane, the node sums over the first
    `512 * (n % 12 + 1)` padded edges — by induction on the point: the first step of a block starts from zero, every
    later one adds its 512 edges to the sum so far. -/
theorem qAt_apply (c : Dev nD) (n : ℕ) : ∀ (h : n < cfg0.N) (jj : Fin 1024),
    qAt m c n h (ix2 (0 : Fin 1) jj)
      = Cert.Spec.accQ (spad m c) (dpad m c) (ppad m c) (512 * (n % 12 + 1)) (1024 * (n / 12) + jj.val) := by
  induction n using Nat.strong_induction_on with
  | _ n ih =>
    intro h jj
    by_cases h0 : n % 12 = 0
    · refine (congrFun (qAt_first m c n h h0) (ix2 (0 : Fin 1) jj)).trans ?_
      refine (stepQ m c n h (k0_pay3 (F := Ideal)) jj).trans ?_
      rw [KPay.pay3_apply, zero_add, h0]
      unfold Cert.Spec.accQ
      refine Finset.sum_congr rfl fun e _ => ?_
      rw [Nat.mul_zero, Nat.zero_add]
    · refine (congrFun (qAt_next m c n h h0) (ix2 (0 : Fin 1) jj)).trans ?_
      refine (stepQ m c n h (qAt m c (n - 1) (pred_lt h)) jj).trans ?_
      rw [ih (n - 1) (by omega) (pred_lt h) jj]
      have e1 : (n - 1) % 12 + 1 = n % 12 := by omega
      have e2 : (n - 1) / 12 = n / 12 := by omega
      rw [e1, e2]
      unfold Cert.Spec.accQ
      rw [show 512 * (n % 12 + 1) = 512 * (n % 12) + 512 from by omega, Finset.sum_range_add]

/-- The same for the log-score accumulator. -/
theorem lAt_apply (c : Dev nD) (n : ℕ) : ∀ (h : n < cfg0.N) (jj : Fin 1024),
    lAt m c n h (ix2 (0 : Fin 1) jj)
      = Cert.Spec.accL (dpad m c) (ppad m c) (512 * (n % 12 + 1)) (1024 * (n / 12) + jj.val) := by
  induction n using Nat.strong_induction_on with
  | _ n ih =>
    intro h jj
    by_cases h0 : n % 12 = 0
    · refine (congrFun (lAt_first m c n h h0) (ix2 (0 : Fin 1) jj)).trans ?_
      refine (stepL m c n h (k0_pay4 (F := Ideal)) jj).trans ?_
      rw [KPay.pay4_apply, zero_add, h0]
      unfold Cert.Spec.accL
      refine Finset.sum_congr rfl fun e _ => ?_
      rw [Nat.mul_zero, Nat.zero_add]
    · refine (congrFun (lAt_next m c n h h0) (ix2 (0 : Fin 1) jj)).trans ?_
      refine (stepL m c n h (lAt m c (n - 1) (pred_lt h)) jj).trans ?_
      rw [ih (n - 1) (by omega) (pred_lt h) jj]
      have e1 : (n - 1) % 12 + 1 = n % 12 := by omega
      have e2 : (n - 1) / 12 = n / 12 := by omega
      rw [e1, e2]
      unfold Cert.Spec.accL
      rw [show 512 * (n % 12 + 1) = 512 * (n % 12) + 512 from by omega, Finset.sum_range_add]

/-! ## The last edge step copies the accumulators out -/

/-- At the last edge step of a node block the node-sum output block holds what the accumulator holds. -/
theorem out3_last (c : Dev nD) (n : ℕ) (h : n < cfg0.N) (h1 : n % 12 = 11) : (outsAt0 m c n h).1 = qAt m c n h := by
  have h0 : ¬n % 12 = 0 := by omega
  show (outsAt0 m c (⟨n, h⟩ : Fin cfg0.N).val (⟨n, h⟩ : Fin cfg0.N).isLt).1 = (outsAt0 m c (⟨n, h⟩ : Fin cfg0.N).val (⟨n, h⟩ : Fin cfg0.N).isLt).2.2.1
  rw [outsAt0_C m c ⟨n, h⟩ h0 h1]
  dsimp only
  exact (KBody.outC3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (outsAt0 m c (n - 1) (pred_lt h)).2.2.1 (outsAt0 m c (n - 1) (pred_lt h)).2.2.2).trans
    (KBody.soutC0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (outsAt0 m c (n - 1) (pred_lt h)).2.2.1 (outsAt0 m c (n - 1) (pred_lt h)).2.2.2).symm

/-- And the log-score output block what the log-score accumulator holds. -/
theorem out4_last (c : Dev nD) (n : ℕ) (h : n < cfg0.N) (h1 : n % 12 = 11) : (outsAt0 m c n h).2.1 = lAt m c n h := by
  have h0 : ¬n % 12 = 0 := by omega
  show (outsAt0 m c (⟨n, h⟩ : Fin cfg0.N).val (⟨n, h⟩ : Fin cfg0.N).isLt).2.1 = (outsAt0 m c (⟨n, h⟩ : Fin cfg0.N).val (⟨n, h⟩ : Fin cfg0.N).isLt).2.2.2
  rw [outsAt0_C m c ⟨n, h⟩ h0 h1]
  dsimp only
  exact (KBody.outC4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (outsAt0 m c (n - 1) (pred_lt h)).2.2.1 (outsAt0 m c (n - 1) (pred_lt h)).2.2.2).trans
    (KBody.soutC1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (outsAt0 m c (n - 1) (pred_lt h)).2.2.1 (outsAt0 m c (n - 1) (pred_lt h)).2.2.2).symm

/-! ## From the output blocks to the result arrays -/

/-- The node sums and log-scores over all 6144 padded edges, column by column. -/
abbrev qArr (c : Dev nD) : FVec Ideal S1x4096 .f32 := fun j => Cert.Spec.accQ (spad m c) (dpad m c) (ppad m c) 6144 (j 1).val
abbrev lArr (c : Dev nD) : FVec Ideal S1x4096 .f32 := fun j => Cert.Spec.accL (dpad m c) (ppad m c) 6144 (j 1).val

/-- What the last edge step of node block `n / 12` writes back is that block of the node sums: lane `jj` of the
    block is column `1024 * (n / 12) + jj` of the array, and the twelve steps have summed `512 * 12 = 6144` edges. -/
theorem flushed3_eq (c : Dev nD) (t : Fin cfg0.N) (hf : (cfg0.win 3).flush t = true) :
    (dats (F := Ideal) m 0 c).flushed 3 t = ((cfg0.win 3).blk t).view.read (Elt Ideal) (qArr m c) := by
  obtain ⟨n, h⟩ := t
  have h1 : n % 12 = 11 := (flush0_3 ⟨n, h⟩).mp hf
  obtain ⟨-, -, -, -, -, -, e0, e1, -⟩ := idx_nat n h
  show (cfg0.win 3).cut (grid0.coords ⟨n, h⟩) ((dats (F := Ideal) m 0 c).after 3 ⟨n, h⟩) = _
  rw [after0_3]
  show (cfg0.win 3).cut (grid0.coords ⟨n, h⟩) (outsAt0 m c n h).1 = _
  rw [out3_last m c n h h1]
  funext j
  obtain ⟨p, q, rfl⟩ : ∃ (p : Fin 1) (q : Fin 1024), j = ix2 p q := ⟨j 0, j 1, eq_ix2 j⟩
  obtain rfl : p = 0 := Subsingleton.elim _ _
  rw [View.read_apply]
  show qAt m c n h (ix2 (0 : Fin 1) q) = Cert.Spec.accQ (spad m c) (dpad m c) (ppad m c) 6144 (win0_3.index ⟨n, h⟩ 1 * 1024 + 1 * q.val)
  rw [qAt_apply m c n h q, e1, h1]
  congr 1
  omega

/-- The same for the log-scores. -/
theorem flushed4_eq (c : Dev nD) (t : Fin cfg0.N) (hf : (cfg0.win 4).flush t = true) :
    (dats (F := Ideal) m 0 c).flushed 4 t = ((cfg0.win 4).blk t).view.read (Elt Ideal) (lArr m c) := by
  obtain ⟨n, h⟩ := t
  have h1 : n % 12 = 11 := (flush0_4 ⟨n, h⟩).mp hf
  obtain ⟨-, -, -, -, -, -, -, -, e0, e1, -⟩ := idx_nat n h
  show (cfg0.win 4).cut (grid0.coords ⟨n, h⟩) ((dats (F := Ideal) m 0 c).after 4 ⟨n, h⟩) = _
  rw [after0_4]
  show (cfg0.win 4).cut (grid0.coords ⟨n, h⟩) (outsAt0 m c n h).2.1 = _
  rw [out4_last m c n h h1]
  funext j
  obtain ⟨p, q, rfl⟩ : ∃ (p : Fin 1) (q : Fin 1024), j = ix2 p q := ⟨j 0, j 1, eq_ix2 j⟩
  obtain rfl : p = 0 := Subsingleton.elim _ _
  rw [View.read_apply]
  show lAt m c n h (ix2 (0 : Fin 1) q) = Cert.Spec.accL (dpad m c) (ppad m c) 6144 (win0_4.index ⟨n, h⟩ 1 * 1024 + 1 * q.val)
  rw [lAt_apply m c n h q, e1, h1]
  congr 1
  omega

/-- Column `i₁` of the node-sum array lies in the block the last edge step of node block `i₁ / 1024` writes back:
    the four blocks cover the 4096 columns. -/
theorem cover3 (i : S1x4096.Idx) : ∃ t : Fin cfg0.N, (cfg0.win 3).flush t = true ∧ i ∈ ((cfg0.win 3).blk t).view.set := by
  have hi0 : (i 0).val < 1 := (i 0).isLt
  have hi1 : (i 1).val < 4096 := (i 1).isLt
  have hN : cfg0.N = 48 := N_0
  have ht : 12 * ((i 1).val / 1024) + 11 < cfg0.N := by omega
  obtain ⟨-, -, -, -, -, -, e0, e1, -⟩ := idx_nat _ ht
  refine ⟨⟨12 * ((i 1).val / 1024) + 11, ht⟩, (flush0_3 _).mpr (by show (12 * ((i 1).val / 1024) + 11) % 12 = 11; omega), ?_⟩
  show i ∈ ((View.whole main_v11_0).slice (win0_3.rect ⟨12 * ((i 1).val / 1024) + 11, ht⟩)).set
  rw [View.set_slice_whole, Rect.mem_set_unit]
  intro a
  match a with
  | ⟨0, _⟩ =>
    show win0_3.index ⟨12 * ((i 1).val / 1024) + 11, ht⟩ 0 * 1 ≤ (i 0).val ∧ (i 0).val < win0_3.index ⟨12 * ((i 1).val / 1024) + 11, ht⟩ 0 * 1 + 1
    rw [e0]; omega
  | ⟨1, _⟩ =>
    show win0_3.index ⟨12 * ((i 1).val / 1024) + 11, ht⟩ 1 * 1024 ≤ (i 1).val ∧ (i 1).val < win0_3.index ⟨12 * ((i 1).val / 1024) + 11, ht⟩ 1 * 1024 + 1024
    rw [e1]; omega

/-- The same for the log-score array. -/
theorem cover4 (i : S1x4096.Idx) : ∃ t : Fin cfg0.N, (cfg0.win 4).flush t = true ∧ i ∈ ((cfg0.win 4).blk t).view.set := by
  have hi0 : (i 0).val < 1 := (i 0).isLt
  have hi1 : (i 1).val < 4096 := (i 1).isLt
  have hN : cfg0.N = 48 := N_0
  have ht : 12 * ((i 1).val / 1024) + 11 < cfg0.N := by omega
  obtain ⟨-, -, -, -, -, -, -, -, e0, e1, -⟩ := idx_nat _ ht
  refine ⟨⟨12 * ((i 1).val / 1024) + 11, ht⟩, (flush0_4 _).mpr (by show (12 * ((i 1).val / 1024) + 11) % 12 = 11; omega), ?_⟩
  show i ∈ ((View.whole main_v11_1).slice (win0_4.rect ⟨12 * ((i 1).val / 1024) + 11, ht⟩)).set
  rw [View.set_slice_whole, Rect.mem_set_unit]
  intro a
  match a with
  | ⟨0, _⟩ =>
    show win0_4.index ⟨12 * ((i 1).val / 1024) + 11, ht⟩ 0 * 1 ≤ (i 0).val ∧ (i 0).val < win0_4.index ⟨12 * ((i 1).val / 1024) + 11, ht⟩ 0 * 1 + 1
    rw [e0]; omega
  | ⟨1, _⟩ =>
    show win0_4.index ⟨12 * ((i 1).val / 1024) + 11, ht⟩ 1 * 1024 ≤ (i 1).val ∧ (i 1).val < win0_4.index ⟨12 * ((i 1).val / 1024) + 11, ht⟩ 1 * 1024 + 1024
    rw [e1]; omega

/-- The node-sum array ends at the sums over all padded edges. -/
theorem final3 (c : Dev nD) :
    (dats (F := Ideal) m 0 c).arrAt 3 cfg0.N
      = fun j => Cert.Spec.accQ (spad m c) (dpad m c) (ppad m c) 6144 (j 1).val :=
  (dats (F := Ideal) m 0 c).arrAt_eq_of_cover 3 (qArr m c) (flushed3_eq m c) cover3

/-- The log-score array ends at the sums over all padded edges. -/
theorem final4 (c : Dev nD) :
    (dats (F := Ideal) m 0 c).arrAt 4 cfg0.N
      = fun j => Cert.Spec.accL (dpad m c) (ppad m c) 6144 (j 1).val :=
  (dats (F := Ideal) m 0 c).arrAt_eq_of_cover 4 (lArr m c) (flushed4_eq m c) cover4

end Cert.KernelIdeal.KFinal

end
-- ==== Proof.KHost.lean ====
/-
  The kernel's program around the region: the padding before it, the closing arithmetic after it, and the run.

  Before the region the sources, targets and weights are padded from 6000 to 6144 rows with the index 4000 and the weight
  zero. A padded edge adds nothing to a real node's sums: its weight is zero, and its end point 4000 is no node below 4000.
  So for a node `n < 4000` the region's sums over the 6144 padded edges are the sums over the 6000 edges (`accQ_eq`,
  `accL_eq`). After the region both arrays are cut to their first 4000 columns and the result is assembled: the mean of
  `exp (ls n) * 9600`, and 200 times the half difference of `∑ (q n)²` and `∑ deg e * (pw e)²` over the number of graphs.
  The closing arithmetic is read block by block (`meanExp`, `sumSq`, `sumDeg`, `graphs`): a sum of every entry of a
  one-row array is the sum along the row, a sum of every entry of a vector over the edges the sum over the edges, and a
  select on the equality of an edge's two end points is its number of distinct end points.
-/
import proofs.«413957_j26843545600697_1_alg».proof.Proof.KFinal
import Idealize.ShloMosaic.Lib.Pipeline.Value
import Idealize.ShloMosaic.Lib.StableHlo.Run
import Idealize.ShloMosaic.Lib.ValueIdx
import Idealize.ShloMosaic.Lib.ValueIdxRank1
import Idealize.ShloMosaic.Lib.ValueLayout
import Idealize.ShloMosaic.Lib.KernelVsHost
import Idealize.ShloMosaic.PureOps.Ideal.Laws

noncomputable section

open scoped BigOperators

namespace Cert.KernelIdeal.KHost

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KFinal

variable (m : (ℓ : Loc nD τ sig) → Buf (Elt Ideal) ℓ) (ρ : Dev nD → PrngReg)

/-- The arguments as the specification reads them. -/
abbrev eiOf (c : Dev nD) : IVec Cert.Spec.SEi 32 := m ((c.tc : Thread nD τ).loc main_arg1)
abbrev efOf (c : Dev nD) : FVec Ideal Cert.Spec.SEf .f32 := m ((c.tc : Thread nD τ).loc main_arg2)
abbrev btOf (c : Dev nD) : IVec Cert.Spec.SBt 32 := m ((c.tc : Thread nD τ).loc main_arg3)

/-- The kernel's result as a closed formula of the arguments. -/
abbrev resultK (c : Dev nD) : EReal :=
  Cert.Spec.resK (eiOf m c) (efOf m c) (Cert.Spec.ngOf (btOf m c) reducesTo_S4000_S_d0 h_S_)

section columns
variable {α : Type}

/-- A column of 6000 rows padded below to 6144 rows: row `e` is the column's own below 6000, the padding value from there on. -/
theorem pad_col_apply (x : S6000x1.Idx → α) (v : S_.Idx → α) (e : Fin 6144) :
    pad S6144x1 ![0, 0] ![144, 0] ![0, 0] x v pads_S6000x1_S6144x1_01440_000 h_S_ (ix2 e (0 : Fin 1))
      = if h : e.val < 6000 then x (ix2 ⟨e.val, h⟩ (0 : Fin 1)) else v ix0 := by
  by_cases h : e.val < 6000
  · rw [dif_pos h]
    exact pad_apply_of_inside _ _ _ x v _ _ _ (ix2 ⟨e.val, h⟩ (0 : Fin 1)) (fun a => by
      match a with
      | ⟨0, _⟩ => show e.val = 0 + e.val * (0 + 1); omega
      | ⟨1, _⟩ => show 0 = 0 + 0 * (0 + 1); rfl)
  · rw [dif_neg h]
    refine (pad_apply_of_not_inside _ _ _ x v _ _ _ (0 : Fin 2) ?_).trans (congrArg v (eq_ix0 _))
    show ¬(0 ≤ e.val ∧ (e.val - 0) % (0 + 1) = 0 ∧ (e.val - 0) / (0 + 1) < 6000)
    omega

/-- A row of 6000 entries turned into a column: row `e` of the column is entry `e` of the row. -/
theorem col_of_row_apply (y : S1x6000.Idx → α) (e : Fin 6000) :
    shapeCast S6000x1 (shapeCast S6000 y shapeCasts_S1x6000_S6000) shapeCasts_S6000_S6000x1 (ix2 e (0 : Fin 1))
      = y (ix2 (0 : Fin 1) e) := by
  rw [shapeCast_apply _ _ (ix2 e (0 : Fin 1)) (ix1 e) (by rw [Shape.rowMajor_val_one, Shape.rowMajor_val_two]; simp)]
  exact shapeCast_apply _ _ (ix1 e) (ix2 (0 : Fin 1) e) (by rw [Shape.rowMajor_val_one, Shape.rowMajor_val_two]; simp)

/-- Row `r` of the index array cut out: entry `e` of the cut is entry `(r, e)` of the array. -/
theorem row_apply (x : S2x6000.Idx → α) (r : Fin 2) (h : S2x6000.Slices ![r.val, 0] S1x6000) (e : Fin 6000) :
    extractStridedSlice S1x6000 ![r.val, 0] x h (ix2 (0 : Fin 1) e) = x (ix2 r e) :=
  extractStridedSlice_apply _ x h _ (ix2 r e) (fun a => by
    match a with
    | ⟨0, _⟩ => show r.val = r.val + 0; rfl
    | ⟨1, _⟩ => show e.val = 0 + e.val; omega)

end columns

/-- The padded sources as the operations before the region leave them. -/
theorem spad_eq (c : Dev nD) :
    (spad m c : S6144x1.Idx → BitVec 32)
      = pad S6144x1 ![0, 0] ![144, 0] ![0, 0]
          (shapeCast S6000x1 (shapeCast S6000 (extractStridedSlice S1x6000 ![0, 0] (eiOf m c) slices_S2x6000_S1x6000_0_0)
            shapeCasts_S1x6000_S6000) shapeCasts_S6000_S6000x1)
          (constantI S_ 32 4000#32) pads_S6000x1_S6144x1_01440_000 h_S_ := by
  dsimp only [KFinal.spad, Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The padded targets. -/
theorem dpad_eq (c : Dev nD) :
    (dpad m c : S6144x1.Idx → BitVec 32)
      = pad S6144x1 ![0, 0] ![144, 0] ![0, 0]
          (shapeCast S6000x1 (shapeCast S6000 (extractStridedSlice S1x6000 ![1, 0] (eiOf m c) slices_S2x6000_S1x6000_1_0)
            shapeCasts_S1x6000_S6000) shapeCasts_S6000_S6000x1)
          (constantI S_ 32 4000#32) pads_S6000x1_S6144x1_01440_000 h_S_ := by
  dsimp only [KFinal.dpad, Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The padded weights. -/
theorem ppad_eq (c : Dev nD) :
    (ppad m c : S6144x1.Idx → EReal)
      = pad S6144x1 ![0, 0] ![144, 0] ![0, 0]
          (shapeCast S6000x1 (shapeCast S6000 (efOf m c) shapeCasts_S6000x1_S6000) shapeCasts_S6000_S6000x1)
          (constant (F := Ideal) S_ .f32 0x00000000#32) pads_S6000x1_S6144x1_01440_000 h_S_ := by
  dsimp only [KFinal.ppad, Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- Row `e` of the padded sources: the edge's source, past the edges the index 4000. -/
theorem spad_apply (c : Dev nD) (e : Fin 6144) :
    spad m c (ix2 e (0 : Fin 1)) = if h : e.val < 6000 then Cert.Spec.src (eiOf m c) ⟨e.val, h⟩ else 4000#32 := by
  refine (congrFun (spad_eq m c) (ix2 e (0 : Fin 1))).trans ?_
  rw [pad_col_apply]
  by_cases h : e.val < 6000
  · rw [dif_pos h, dif_pos h, col_of_row_apply]
    exact row_apply (eiOf m c) (0 : Fin 2) _ ⟨e.val, h⟩
  · rw [dif_neg h, dif_neg h]; rfl

/-- Row `e` of the padded targets. -/
theorem dpad_apply (c : Dev nD) (e : Fin 6144) :
    dpad m c (ix2 e (0 : Fin 1)) = if h : e.val < 6000 then Cert.Spec.dst (eiOf m c) ⟨e.val, h⟩ else 4000#32 := by
  refine (congrFun (dpad_eq m c) (ix2 e (0 : Fin 1))).trans ?_
  rw [pad_col_apply]
  by_cases h : e.val < 6000
  · rw [dif_pos h, dif_pos h, col_of_row_apply]
    exact row_apply (eiOf m c) (1 : Fin 2) _ ⟨e.val, h⟩
  · rw [dif_neg h, dif_neg h]; rfl

/-- Row `e` of the padded weights: the edge's weight, past the edges zero. -/
theorem ppad_apply (c : Dev nD) (e : Fin 6144) :
    ppad m c (ix2 e (0 : Fin 1)) = if h : e.val < 6000 then Cert.Spec.pw (efOf m c) ⟨e.val, h⟩ else 0 := by
  refine (congrFun (ppad_eq m c) (ix2 e (0 : Fin 1))).trans ?_
  rw [pad_col_apply]
  by_cases h : e.val < 6000
  · rw [dif_pos h, dif_pos h, shapeCast_shapeCast]; rfl
  · rw [dif_neg h, dif_neg h]
    exact Ideal.ofBits_zero_f32

/-- A sum over the 6144 padded edges whose last 144 terms vanish is the sum over the 6000 edges. -/
theorem sum_padded (f : ℕ → EReal) (g : Fin 6000 → EReal) (hg : ∀ e : Fin 6000, f e.val = g e)
    (hz : ∀ e : ℕ, 6000 ≤ e → e < 6144 → f e = 0) : ∑ e ∈ Finset.range 6144, f e = ∑ e : Fin 6000, g e := by
  rw [show (6144 : ℕ) = 6000 + 144 from rfl, Finset.sum_range_add,
    Finset.sum_eq_zero (fun x hx => hz (6000 + x) (by omega) (by have := Finset.mem_range.mp hx; omega)), add_zero,
    Finset.sum_range]
  exact Finset.sum_congr rfl fun e _ => hg e

/-- The index 4000 is no node below 4000. -/
theorem ind_pad (n : Fin 4000) : Cert.Spec.ind 4000#32 (BitVec.ofNat 32 n.val) = 0 := by
  unfold Cert.Spec.ind
  rw [if_neg]
  intro h
  have h' := congrArg BitVec.toNat h
  simp only [BitVec.toNat_ofNat] at h'
  have := n.isLt
  omega

/-- A real node's sum over the padded edges is its sum over the edges. -/
theorem accQ_eq (c : Dev nD) (n : Fin 4000) :
    Cert.Spec.accQ (spad m c) (dpad m c) (ppad m c) 6144 n.val = Cert.Spec.qK (eiOf m c) (efOf m c) n.val := by
  unfold Cert.Spec.accQ Cert.Spec.qK
  refine sum_padded _ _ (fun e => ?_) (fun e h0 h1 => ?_)
  · have he : e.val < 6144 := by have := e.isLt; omega
    unfold Cert.Spec.termQ
    rw [dif_pos he, spad_apply, dpad_apply, ppad_apply, dif_pos e.isLt, dif_pos e.isLt, dif_pos e.isLt]
  · unfold Cert.Spec.termQ
    rw [dif_pos h1, ppad_apply, dif_neg (by show ¬ e < 6000; omega), mul_zero]

/-- A real node's log-score over the padded edges is its log-score over the edges. -/
theorem accL_eq (c : Dev nD) (n : Fin 4000) :
    Cert.Spec.accL (dpad m c) (ppad m c) 6144 n.val = Cert.Spec.lsK (eiOf m c) (efOf m c) n.val := by
  unfold Cert.Spec.accL Cert.Spec.lsK
  refine sum_padded _ _ (fun e => ?_) (fun e h0 h1 => ?_)
  · have he : e.val < 6144 := by have := e.isLt; omega
    unfold Cert.Spec.termL
    rw [dif_pos he, dpad_apply, ppad_apply, dif_pos e.isLt, dif_pos e.isLt]
  · unfold Cert.Spec.termL
    rw [dif_pos h1, dpad_apply, dif_neg (by show ¬ e < 6000; omega), ind_pad, zero_mul]

/-! ## The closing arithmetic, block by block -/

section closing

variable (q ls : FVec Ideal S1x4096 .f32) (ei : IVec S2x6000 32) (ef : FVec Ideal S6000x1 .f32) (bt : IVec S4000 32)

/-- The first 4000 columns of a row of 4096. -/
theorem cut_apply {α : Type} (x : S1x4096.Idx → α) (n : Fin 4000) :
    extractStridedSlice S1x4000 ![0, 0] x slices_S1x4096_S1x4000_0_0 (ix2 (0 : Fin 1) n)
      = x (ix2 (0 : Fin 1) (⟨n.val, by have := n.isLt; omega⟩ : Fin 4096)) :=
  extractStridedSlice_apply _ x _ _ _ (fun a => by
    match a with
    | ⟨0, _⟩ => rfl
    | ⟨1, _⟩ => show n.val = 0 + n.val; omega)

/-- A sum over a one-row array is the sum along the row. -/
theorem sum_row (f : S1x4000.Idx → EReal) : ∑ j : S1x4000.Idx, f j = ∑ n : Fin 4000, f (ix2 (0 : Fin 1) n) := by
  rw [sum_idx2, Fin.sum_univ_one]

/-- The sum of every entry of a one-row array, from an initial value. -/
theorem reduce_row (x : FVec Ideal S1x4000 .f32) (z : FVec Ideal S_ .f32) (i : S_.Idx) :
    Host.reduceAdd (F := Ideal) x z reducesTo_S1x4000_S_d0_1 h_S_ i
      = z (Shape.Idx.first h_S_) + ∑ n : Fin 4000, x (ix2 (0 : Fin 1) n) := by
  simp only [Host.reduceAdd, Ideal.hostReduceAdd_def]
  rw [Ideal.hostReduceAdd_total reducesTo_S1x4000_S_d0_1 (fun b => b.elim0) x _ i, sum_row]

/-- The sum of every entry of a vector over the edges, from an initial value. -/
theorem reduce_edges (x : FVec Ideal S6000 .f32) (z : FVec Ideal S_ .f32) (i : S_.Idx) :
    Host.reduceAdd (F := Ideal) x z reducesTo_S6000_S_d0 h_S_ i
      = z (Shape.Idx.first h_S_) + ∑ e : Fin 6000, x (ix1 e) := by
  simp only [Host.reduceAdd, Ideal.hostReduceAdd_def]
  rw [Ideal.hostReduceAdd_total reducesTo_S6000_S_d0 (fun b => b.elim0) x _ i]
  exact congrArg _ (Equiv.sum_comp idxEquiv1.symm x).symm

/-- Row `r` of the index array as a vector over the edges. -/
theorem edge_row_apply (r : Fin 2) (h : S2x6000.Slices ![r.val, 0] S1x6000) (e : Fin 6000) :
    shapeCast S6000 (extractStridedSlice S1x6000 ![r.val, 0] ei h) shapeCasts_S1x6000_S6000 (ix1 e) = ei (ix2 r e) := by
  rw [shapeCast_apply _ _ (ix1 e) (ix2 (0 : Fin 1) e) (by rw [Shape.rowMajor_val_one, Shape.rowMajor_val_two]; simp)]
  exact row_apply ei r h e

/-- The sources and the targets as vectors over the edges. -/
theorem edge_src_apply (e : Fin 6000) :
    shapeCast S6000 (extractStridedSlice S1x6000 ![0, 0] ei slices_S2x6000_S1x6000_0_0) shapeCasts_S1x6000_S6000 (ix1 e)
      = ei (ix2 (0 : Fin 2) e) := edge_row_apply ei (0 : Fin 2) _ e
theorem edge_dst_apply (e : Fin 6000) :
    shapeCast S6000 (extractStridedSlice S1x6000 ![1, 0] ei slices_S2x6000_S1x6000_1_0) shapeCasts_S1x6000_S6000 (ix1 e)
      = ei (ix2 (1 : Fin 2) e) := edge_row_apply ei (1 : Fin 2) _ e

/-- The weights as a vector over the edges. -/
theorem edge_weight_apply (e : Fin 6000) :
    shapeCast S6000 ef shapeCasts_S6000x1_S6000 (ix1 e) = ef (ix2 e (0 : Fin 1)) :=
  shapeCast_apply _ _ (ix1 e) (ix2 e (0 : Fin 1)) (by rw [Shape.rowMajor_val_one, Shape.rowMajor_val_two]; simp)

/-- A select on the equality of two words is the `if` on it. -/
theorem select_eq {α : Type} (x y : BitVec 32) (A B : α) :
    Scalar.select (IntOp.cmpi .eq x y) A B = if x = y then A else B := by
  show (if BitVec.ofBool (x == y) = 1#1 then A else B) = _
  by_cases h : x = y
  · rw [if_pos h, beq_iff_eq.mpr h]; rfl
  · rw [if_neg h, beq_eq_false_iff_ne.mpr h]; rfl

/-- The mean over the nodes of `exp (ls n) * 9600`. -/
def meanExp : FVec Ideal S_ .f32 :=
  Host.divf
    (Host.reduceAdd
      (mulf (Host.exp (extractStridedSlice S1x4000 ![0, 0] ls slices_S1x4096_S1x4000_0_0))
        (broadcastInDim S1x4000 ![] bcast_S_S1x4000 (constant S_ .f32 0x46160000#32)))
      (constant S_ .f32 0x00000000#32) reducesTo_S1x4000_S_d0_1 h_S_)
    (constant S_ .f32 0x457A0000#32)

theorem meanExp_apply (i : S_.Idx) :
    meanExp ls i = Ideal.div (Cert.Spec.zero + ∑ n : Fin 4000,
      Ideal.exp (ls (ix2 (0 : Fin 1) (⟨n.val, by have := n.isLt; omega⟩ : Fin 4096))) * Cert.Spec.c9600) Cert.Spec.c4000 := by
  unfold meanExp
  show Ideal.div (Host.reduceAdd (F := Ideal) _ _ reducesTo_S1x4000_S_d0_1 h_S_ i) _ = _
  rw [reduce_row]
  refine congrArg₂ Ideal.div (congrArg₂ (· + ·) rfl (Finset.sum_congr rfl fun n _ => ?_)) rfl
  show Ideal.exp (extractStridedSlice S1x4000 ![0, 0] ls slices_S1x4096_S1x4000_0_0 (ix2 (0 : Fin 1) n)) * _ = _
  rw [cut_apply]
  rfl

/-- The sum over the nodes of the squared node sums. -/
def sumSq : FVec Ideal S_ .f32 :=
  Host.reduceAdd
    (mulf (extractStridedSlice S1x4000 ![0, 0] q slices_S1x4096_S1x4000_0_0)
      (extractStridedSlice S1x4000 ![0, 0] q slices_S1x4096_S1x4000_0_0))
    (constant S_ .f32 0x00000000#32) reducesTo_S1x4000_S_d0_1 h_S_

theorem sumSq_apply (i : S_.Idx) :
    sumSq q i = Cert.Spec.zero + ∑ n : Fin 4000,
      q (ix2 (0 : Fin 1) (⟨n.val, by have := n.isLt; omega⟩ : Fin 4096)) * q (ix2 (0 : Fin 1) (⟨n.val, by have := n.isLt; omega⟩ : Fin 4096)) := by
  unfold sumSq
  rw [reduce_row]
  refine congrArg₂ (· + ·) rfl (Finset.sum_congr rfl fun n _ => ?_)
  show extractStridedSlice S1x4000 ![0, 0] q slices_S1x4096_S1x4000_0_0 (ix2 (0 : Fin 1) n)
    * extractStridedSlice S1x4000 ![0, 0] q slices_S1x4096_S1x4000_0_0 (ix2 (0 : Fin 1) n) = _
  rw [cut_apply]

/-- The sum over the edges of the number of end points times the squared weight. -/
def sumDeg : FVec Ideal S_ .f32 :=
  Host.reduceAdd
    (mulf
      (select
        (cmpi .eq (shapeCast S6000 (extractStridedSlice S1x6000 ![0, 0] ei slices_S2x6000_S1x6000_0_0) shapeCasts_S1x6000_S6000)
          (shapeCast S6000 (extractStridedSlice S1x6000 ![1, 0] ei slices_S2x6000_S1x6000_1_0) shapeCasts_S1x6000_S6000))
        (broadcastInDim S6000 ![] bcast_S_S6000 (constant (F := Ideal) S_ .f32 0x3F800000#32))
        (broadcastInDim S6000 ![] bcast_S_S6000 (constant (F := Ideal) S_ .f32 0x40000000#32)))
      (mulf (shapeCast S6000 ef shapeCasts_S6000x1_S6000) (shapeCast S6000 ef shapeCasts_S6000x1_S6000)))
    (constant S_ .f32 0x00000000#32) reducesTo_S6000_S_d0 h_S_

theorem sumDeg_apply (i : S_.Idx) :
    sumDeg ei ef i = Cert.Spec.zero + ∑ e : Fin 6000, Cert.Spec.degK ei e * (Cert.Spec.pw ef e * Cert.Spec.pw ef e) := by
  unfold sumDeg
  rw [reduce_edges]
  refine congrArg₂ (· + ·) rfl (Finset.sum_congr rfl fun e _ => ?_)
  show Scalar.select (IntOp.cmpi .eq
        (shapeCast S6000 (extractStridedSlice S1x6000 ![0, 0] ei slices_S2x6000_S1x6000_0_0) shapeCasts_S1x6000_S6000 (ix1 e))
        (shapeCast S6000 (extractStridedSlice S1x6000 ![1, 0] ei slices_S2x6000_S1x6000_1_0) shapeCasts_S1x6000_S6000 (ix1 e)))
      (broadcastInDim S6000 ![] bcast_S_S6000 (constant (F := Ideal) S_ .f32 0x3F800000#32) (ix1 e))
      (broadcastInDim S6000 ![] bcast_S_S6000 (constant (F := Ideal) S_ .f32 0x40000000#32) (ix1 e))
    * (shapeCast S6000 ef shapeCasts_S6000x1_S6000 (ix1 e) * shapeCast S6000 ef shapeCasts_S6000x1_S6000 (ix1 e)) = _
  rw [edge_src_apply, edge_dst_apply, edge_weight_apply, select_eq]
  rfl

/-- The number of graphs: the batch array's signed maximum plus one, as a real. -/
def graphs : FVec Ideal S_ .f32 :=
  sitofp .f32 (addi (Host.reduce IntOp.maxsi bt (constantI S_ 32 2147483648#32) reducesTo_S4000_S_d0 h_S_) (constantI S_ 32 1#32))

theorem graphs_apply (i : S_.Idx) : graphs bt i = Cert.Spec.ngOf bt reducesTo_S4000_S_d0 h_S_ := by
  rw [eq_ix0 i]; rfl

/-- The closing arithmetic as one function of the region's two arrays and the arguments. -/
def closing : FVec Ideal S1x1 .f32 :=
  shapeCast S1x1
    (addf (meanExp ls)
      (mulf (constant S_ .f32 0x43480000#32)
        (Host.divf (mulf (subf (sumSq q) (sumDeg ei ef)) (constant S_ .f32 0x3F000000#32)) (graphs bt))))
    shapeCasts_S_S1x1

/-- The closing arithmetic on arrays whose first 4000 columns are the node sums and the log-scores is the closed formula. -/
theorem closing_apply
    (hq : ∀ n : Fin 4000, q (ix2 (0 : Fin 1) (⟨n.val, by have := n.isLt; omega⟩ : Fin 4096)) = Cert.Spec.qK ei ef n.val)
    (hl : ∀ n : Fin 4000, ls (ix2 (0 : Fin 1) (⟨n.val, by have := n.isLt; omega⟩ : Fin 4096)) = Cert.Spec.lsK ei ef n.val)
    (i : S1x1.Idx) :
    closing q ls ei ef bt i = Cert.Spec.resK ei ef (Cert.Spec.ngOf bt reducesTo_S4000_S_d0 h_S_) := by
  unfold closing
  show meanExp ls _ + Ideal.ofBits .f32 0x43480000#32
      * Ideal.div ((sumSq q _ - sumDeg ei ef _) * Ideal.ofBits .f32 0x3F000000#32) (graphs bt _) = _
  rw [meanExp_apply, sumSq_apply, sumDeg_apply, graphs_apply]
  simp only [hq, hl]
  rfl

end closing

/-- The lines after the region are the closing arithmetic applied to the region's two result arrays and the arguments. -/
theorem tail_closing (c : Dev nD) :
    Pipeline.afterTail₀ cfgs (dats (F := Ideal) m) 0 (V0 m) [hostOps1, hostOps1_1, hostOps1_2] c main_v40
      = closing (fun j => Cert.Spec.accQ (spad m c) (dpad m c) (ppad m c) 6144 (j 1).val)
          (fun j => Cert.Spec.accL (dpad m c) (ppad m c) 6144 (j 1).val) (eiOf m c) (efOf m c) (btOf m c) := by
  unfold Pipeline.afterTail₀
  generalize hW : Pipeline.withArrays (cfgs 0).spec c (V0 m c) (fun w => (dats (F := Ideal) m 0 c).arrAt w (cfgs 0).N) = W
  have h3 : W (Proc.devRef .tc main_v11_0) = fun j => Cert.Spec.accQ (spad m c) (dpad m c) (ppad m c) 6144 (j 1).val := by
    rw [← hW]; exact (Pipeline.withArrays_arr spec0 launch0.win.arr_inj c _ _ 3).trans (KFinal.final3 m c)
  have h4 : W (Proc.devRef .tc main_v11_1) = fun j => Cert.Spec.accL (dpad m c) (ppad m c) 6144 (j 1).val := by
    rw [← hW]; exact (Pipeline.withArrays_arr spec0 launch0.win.arr_inj c _ _ 4).trans (KFinal.final4 m c)
  have ha1 : W (Proc.devRef .tc main_arg1) = eiOf m c := by
    rw [← hW, Pipeline.withArrays_of_ne _ c (V0 m c) _ main_arg1 (by exact (by decide : ∀ w, Pipeline.arrRef spec0 w ≠ main_arg1))]
    exact V_main_arg1 m c
  have ha2 : W (Proc.devRef .tc main_arg2) = efOf m c := by
    rw [← hW, Pipeline.withArrays_of_ne _ c (V0 m c) _ main_arg2 (by exact (by decide : ∀ w, Pipeline.arrRef spec0 w ≠ main_arg2))]
    exact V_main_arg2 m c
  have ha3 : W (Proc.devRef .tc main_arg3) = btOf m c := by
    rw [← hW, Pipeline.withArrays_of_ne _ c (V0 m c) _ main_arg3 (by exact (by decide : ∀ w, Pipeline.arrRef spec0 w ≠ main_arg3))]
    exact V_main_arg3 m c
  simp only [Gen.hostOps1, Gen.hostOps1_1, Gen.hostOps1_2, List.flatten_cons, List.flatten_nil, List.append_nil, List.cons_append,
    List.nil_append]
  after_results_simp
  rw [h3, h4, ha1, ha2, ha3]
  rfl

/-- The closing arithmetic applied to the region's two arrays is the kernel's closed formula. -/
theorem tail_eq (c : Dev nD) :
    Pipeline.afterTail₀ cfgs (dats (F := Ideal) m) 0 (V0 m) [hostOps1, hostOps1_1, hostOps1_2] c main_v40
      = fun _ => resultK m c := by
  rw [tail_closing]
  funext i
  exact closing_apply _ _ _ _ _ (fun n => accQ_eq m c n) (fun n => accL_eq m c n) i

/-- The run: the result buffer ends at the closed formula, the arguments unchanged. -/
theorem run : θ_run defs (onTc (τ := τ) (main (F := Ideal))) ⟨m, fun _ => 0, ρ⟩ (fun r => ∀ c : Dev nD,
      r.2.mem ((c.tc : Thread nD τ).loc main_v40) = (fun _ => resultK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v40 (Pipeline.mem_restRefs_of main_v40 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main (F := Ideal) m ρ)

end Cert.KernelIdeal.KHost

end
-- ==== Proof.RefScatter.lean ====
/-
  The reference's two scatters read at an index, over the extended reals.

  The accumulating scatter of the messages onto their target nodes leaves at node `n` zero plus the messages of the edges
  whose target is `n`: update `e` lands on row `dst e` when that names a node. The overwriting scatter of the value one
  onto a zero matrix at the positions `(e, src e)` and `(e, dst e)` leaves one exactly where some update lands and zero
  elsewhere — every update carries the same value, so the order in which colliding updates are applied does not matter.
  With every index naming a node, no index is negative, so the shift the reference applies to negative indices never acts.
-/
import proofs.«413957_j26843545600697_1_alg».proof.Proof.Gen.ReferenceIdeal.Read
import proofs.«413957_j26843545600697_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefScatter

open Idealize.ShloMosaic Idealize.ShloMosaic.ValueIdx
open Cert.ReferenceIdeal Cert.ReferenceIdeal.Gen Cert.ReferenceIdeal.Read

/-! ## Words -/

/-- A number below 6000 written as a word and read signed is that number. -/
theorem toInt_ofNat_small (n : Nat) (hn : n < 6000) : (BitVec.ofNat 32 n).toInt = (n : Int) := by
  rw [BitVec.toInt_eq_toNat_cond, BitVec.toNat_ofNat]
  have : n % 2 ^ 32 = n := Nat.mod_eq_of_lt (by omega)
  rw [this]
  rw [if_pos (by omega)]

/-- A word that names a node is the node's number written as a word exactly when its signed value is that number. -/
theorem toInt_eq_iff (b : BitVec 32) (n : Nat) (hn : n < 6000) : b.toInt = (n : Int) ↔ b = BitVec.ofNat 32 n := by
  rw [← toInt_ofNat_small n hn, BitVec.toInt_inj]

/-- A select on "the word is negative, read signed" keeps its last operand where the word is not negative. -/
theorem select_slt_zero (a x y : BitVec 32) (h : 0 ≤ a.toInt) :
    Scalar.select (IntOp.cmpi .slt a 0#32) x y = y := by
  have hs : a.slt 0#32 = false := by
    rw [Bool.eq_false_iff]
    intro hc
    have := BitVec.slt_iff_toInt_lt.1 hc
    rw [BitVec.toInt_zero] at this
    omega
  have hz : IntOp.cmpi .slt a 0#32 = 0#1 := by
    show BitVec.ofBool (a.slt 0#32) = 0#1
    rw [hs]; rfl
  rw [hz, select_zero]

/-! ## The accumulating scatter

Its record sends update `(e, 0)` to row `idx (e, 0)`, read signed, and column `0`. -/

/-- The accumulating scatter's record. -/
abbrev dA := scatter_S4000x1_S6000x1_S6000x1_1_0_0_1

/-- The index array is read at the update's row, column `0`: axis by axis, then as one index. -/
theorem dA_siIdx_0 (j : S6000x1.Idx) (c : Fin dA.scatterDimsToOperandDims.length) :
    (dA.siIdx j c 0).val = (j 0).val := by
  unfold ScatterDims.siIdx
  rw [dif_neg (show ¬ ((0 : Fin S6000x1.rank).val = dA.indexVectorDim) by decide)]
  unfold ScatterDims.siCoord
  rfl

theorem dA_siIdx_1 (j : S6000x1.Idx) (c : Fin dA.scatterDimsToOperandDims.length) :
    (dA.siIdx j c 1).val = 0 := by
  have := (dA.siIdx j c 1).isLt
  have h1 : S6000x1.size 1 = 1 := rfl
  omega

theorem dA_siIdx (j : S6000x1.Idx) (c : Fin dA.scatterDimsToOperandDims.length) :
    dA.siIdx j c = ix2 (j 0) (0 : Fin 1) := by
  funext b
  apply Fin.ext
  match b with
  | ⟨0, _⟩ => exact dA_siIdx_0 j c
  | ⟨1, _⟩ => exact dA_siIdx_1 j c

/-- The start on the row axis is the index word read signed; on the column axis it is zero; the window coordinates are zero. -/
theorem dA_start0 {w : Nat} (j : S6000x1.Idx) (idx : IVec S6000x1 w) :
    dA.start j idx 0 = (idx (ix2 (j 0) (0 : Fin 1))).toInt := by
  unfold ScatterDims.start
  rw [dif_pos (show (0 : Fin S4000x1.rank) ∈ dA.scatterDimsToOperandDims by decide), dA_siIdx]
  rfl

theorem dA_start1 {w : Nat} (j : S6000x1.Idx) (idx : IVec S6000x1 w) :
    dA.start j idx 1 = 0 := by
  unfold ScatterDims.start
  rw [dif_neg (show ¬ (1 : Fin S4000x1.rank) ∈ dA.scatterDimsToOperandDims by decide)]

theorem dA_window0 (j : S6000x1.Idx) : dA.window j 0 = 0 := by
  unfold ScatterDims.window
  rw [dif_neg (show ¬ (0 : Fin S4000x1.rank) ∈ dA.sKept by decide)]

theorem dA_window1 (j : S6000x1.Idx) : dA.window j 1 = 0 := by
  unfold ScatterDims.window
  rw [dif_pos (show (1 : Fin S4000x1.rank) ∈ dA.sKept by decide)]
  have := (j (dA.updateWindowDims[List.idxOf (1 : Fin S4000x1.rank) dA.sKept]'(by decide))).isLt
  have h1 : S6000x1.size (dA.updateWindowDims[List.idxOf (1 : Fin S4000x1.rank) dA.sKept]'(by decide)) = 1 := by decide
  omega

/-- Where an update lands: row the signed value of its index word, when that names a row. -/
theorem dA_resultIdx {w : Nat} (j : S6000x1.Idx) (idx : IVec S6000x1 w) (n : Fin 4000) :
    dA.resultIdx? j idx = some (ix2 n (0 : Fin 1)) ↔ (idx (ix2 (j 0) (0 : Fin 1))).toInt = (n.val : Int) := by
  unfold ScatterDims.resultIdx?
  constructor
  · intro h
    split at h
    · next hall =>
      have := congrFun (Option.some.inj h) 0
      have h0 := congrArg Fin.val this
      simp only [dA_start0, dA_window0] at h0
      have := (hall 0).1
      rw [dA_start0, dA_window0] at this
      show _ = ((ix2 n (0 : Fin 1) (0 : Fin 2)).val : Int)
      rw [← h0]
      simp at this ⊢
      omega
    · exact absurd h (by simp)
  · intro h
    have hall : ∀ a, 0 ≤ dA.start j idx a + dA.window j a ∧ dA.start j idx a + dA.window j a < S4000x1.size a := by
      intro a
      match a with
      | ⟨0, _⟩ =>
        show 0 ≤ dA.start j idx 0 + dA.window j 0 ∧ dA.start j idx 0 + dA.window j 0 < 4000
        rw [dA_start0, dA_window0, h]; have := n.isLt; omega
      | ⟨1, _⟩ =>
        show 0 ≤ dA.start j idx 1 + dA.window j 1 ∧ dA.start j idx 1 + dA.window j 1 < 1
        rw [dA_start1, dA_window1]; omega
    rw [dif_pos hall]
    congr 1
    funext a
    apply Fin.ext
    match a with
    | ⟨0, _⟩ =>
      show (dA.start j idx 0 + dA.window j 0).toNat = n.val
      rw [dA_start0, dA_window0, h]; simp
    | ⟨1, _⟩ =>
      show (dA.start j idx 1 + dA.window j 1).toNat = 0
      rw [dA_start1, dA_window1]; simp

/-- The index column of the accumulating scatter is the row of targets. -/
theorem v8_at (x1 : IVec Cert.Spec.SEi 32) (e : Fin 6000) :
    val_main_v8 (F := Ideal) x1 (ix2 e (0 : Fin 1)) = Cert.Spec.dst x1 e := by
  rw [val_main_v8_apply, val_main_v6_apply, val_main_v5_apply]
  unfold Cert.Spec.dst
  congr 1
  funext a
  apply Fin.ext
  match a with
  | ⟨0, _⟩ => rfl
  | ⟨1, _⟩ =>
    show (e.val) % 6000 = e.val
    have := e.isLt
    omega

/-- The update column of the accumulating scatter holds the edges' messages. -/
theorem v4_at (x2 : FVec Ideal Cert.Spec.SEf .f32) (e : Fin 6000) :
    val_main_v4 (F := Ideal) x2 (ix2 e (0 : Fin 1)) = Cert.Spec.lmsg (Cert.Spec.pw x2 e) := by
  rw [val_main_v4_apply, val_main_v3_apply, val_main_v1_apply, val_main_v0_apply, val_main_v2_apply,
    val_main_cst_apply, val_main_cst_0_apply]
  simp only [Ideal.hostUnary_log_def, Ideal.addf_def, Ideal.subf_def, Ideal.ofBits_def]
  rfl

/-- The accumulating scatter's operand is zero everywhere. -/
theorem v7_at (i : S4000x1.Idx) : val_main_v7 (F := Ideal) i = Cert.Spec.zero := by
  rw [val_main_v7_apply, val_main_cst_1_apply]
  rfl

/-- Node `n`'s log-score: zero plus the messages of the edges that end in `n`. -/
theorem v9_apply (x1 : IVec Cert.Spec.SEi 32) (x2 : FVec Ideal Cert.Spec.SEf .f32) (hr : Cert.Spec.InRange x1) (n : Fin 4000) :
    val_main_v9 (F := Ideal) x1 x2 (ix2 n (0 : Fin 1)) = Cert.Spec.lsR x1 x2 n := by
  unfold val_main_v9 Host.scatterAdd
  rw [Ideal.hostScatterAdd_def]
  unfold Ideal.hostScatterAdd
  rw [v7_at]
  unfold Cert.Spec.lsR
  congr 1
  rw [Finset.sum_filter, sum_idx2]
  refine Finset.sum_congr rfl fun e _ => ?_
  rw [Fin.sum_univ_one]
  have hc : (dA.resultIdx? (ix2 e (0 : Fin 1)) (val_main_v8 (F := Ideal) x1) = some (ix2 n (0 : Fin 1)))
      ↔ (Cert.Spec.dst x1 e = BitVec.ofNat 32 n.val) := by
    refine (dA_resultIdx _ _ _).trans ?_
    show (val_main_v8 (F := Ideal) x1 (ix2 e (0 : Fin 1))).toInt = _ ↔ _
    rw [v8_at, toInt_eq_iff _ _ (by have := n.isLt; omega)]
  rw [v4_at]
  by_cases h : Cert.Spec.dst x1 e = BitVec.ofNat 32 n.val
  · rw [if_pos (hc.2 h), if_pos h]
  · rw [if_neg (fun h' => h (hc.1 h')), if_neg h]

/-! ## The overwriting scatter

Its record sends update `(e, k)` to the entry whose row and column are the two words `idx (e, k, 0)` and `idx (e, k, 1)`, read signed. -/

section Fold
variable {ι κ α : Type}

open Classical in
/-- Overwriting with one and the same value `c` along a list of updates: position `i` ends up holding `c` when some update
    of the list lands on it, and keeps what it held otherwise — the order of the updates plays no part. -/
theorem foldl_const_apply (step : (κ → α) → ι → (κ → α)) (pos : ι → Option κ) (c : α)
    (hstep : ∀ r k i, step r k i = if pos k = some i then c else r i) (l : List ι) (x : κ → α) (i : κ) :
    l.foldl step x i = if ∃ k ∈ l, pos k = some i then c else x i := by
  induction l generalizing x with
  | nil => simp
  | cons a l ih =>
    rw [List.foldl_cons, ih, hstep]
    by_cases h1 : ∃ k ∈ l, pos k = some i
    · obtain ⟨k, hk, hp⟩ := h1
      rw [if_pos ⟨k, hk, hp⟩, if_pos ⟨k, List.mem_cons_of_mem _ hk, hp⟩]
    · rw [if_neg h1]
      by_cases h2 : pos a = some i
      · rw [if_pos h2, if_pos ⟨a, List.mem_cons_self, h2⟩]
      · rw [if_neg h2, if_neg]
        rintro ⟨k, hk, hp⟩
        rcases List.mem_cons.1 hk with rfl | hk
        · exact h2 hp
        · exact h1 ⟨k, hk, hp⟩

end Fold

open Classical in
/-- The overwriting scatter of one and the same value `c`, read at an index: `c` where some update lands, the operand
    elsewhere. -/
theorem scatter_const_apply {s si u : Shape} {w : Nat} {α : Type} (d : ScatterDims s si u) (x : s.Idx → α) (idx : IVec si w)
    (upd : u.Idx → α) (c : α) (hc : ∀ j, upd j = c) (i : s.Idx) :
    Host.scatter d (fun _ b => b) x idx upd i = if ∃ j : u.Idx, d.resultIdx? j idx = some i then c else x i := by
  unfold Host.scatter
  rw [foldl_const_apply _ (fun n => d.resultIdx? (u.rowMajor.symm n) idx) c]
  · by_cases h : ∃ j : u.Idx, d.resultIdx? j idx = some i
    · obtain ⟨j, hj⟩ := h
      rw [if_pos (⟨u.rowMajor j, List.mem_finRange _, by simpa using hj⟩ : ∃ k ∈ List.finRange u.numel, d.resultIdx? (u.rowMajor.symm k) idx = some i),
        if_pos ⟨j, hj⟩]
    · rw [if_neg h, if_neg]
      rintro ⟨n, _, hn⟩
      exact h ⟨_, hn⟩
  · intro r n i'
    dsimp only
    cases hp : d.resultIdx? (u.rowMajor.symm n) idx with
    | none => simp
    | some p =>
      dsimp only
      by_cases hi : i' = p
      · subst hi; rw [if_pos rfl, if_pos rfl, hc]
      · rw [if_neg hi, if_neg]; intro h'; exact hi (Option.some.inj h').symm

/-- The overwriting scatter's record. -/
abbrev dB := scatter_S6000x4000_S6000x2x2_S6000x2_n_01_01_2

/-- The index array is read at the update's two coordinates and the component's number: axis by axis, then as one index. -/
theorem dB_siIdx_0 (j : S6000x2.Idx) (c : Fin dB.scatterDimsToOperandDims.length) :
    (dB.siIdx j c 0).val = (j 0).val := by
  unfold ScatterDims.siIdx
  rw [dif_neg (show ¬ ((0 : Fin S6000x2x2.rank).val = dB.indexVectorDim) by decide)]
  unfold ScatterDims.siCoord
  rfl

theorem dB_siIdx_1 (j : S6000x2.Idx) (c : Fin dB.scatterDimsToOperandDims.length) :
    (dB.siIdx j c 1).val = (j 1).val := by
  unfold ScatterDims.siIdx
  rw [dif_neg (show ¬ ((1 : Fin S6000x2x2.rank).val = dB.indexVectorDim) by decide)]
  unfold ScatterDims.siCoord
  rfl

theorem dB_siIdx_2 (j : S6000x2.Idx) (c : Fin dB.scatterDimsToOperandDims.length) :
    (dB.siIdx j c 2).val = c.val := by
  unfold ScatterDims.siIdx
  rw [dif_pos (show ((2 : Fin S6000x2x2.rank).val = dB.indexVectorDim) by decide)]

theorem dB_siIdx (j : S6000x2.Idx) (c : Fin dB.scatterDimsToOperandDims.length) :
    dB.siIdx j c = ix3 (j 0) (j 1) (⟨c.val, c.isLt⟩ : Fin 2) := by
  funext b
  apply Fin.ext
  match b with
  | ⟨0, _⟩ => exact dB_siIdx_0 j c
  | ⟨1, _⟩ => exact dB_siIdx_1 j c
  | ⟨2, _⟩ => exact dB_siIdx_2 j c

/-- The start on each axis is that component's index word read signed; the window coordinates are zero. -/
theorem dB_start0 {w : Nat} (j : S6000x2.Idx) (idx : IVec S6000x2x2 w) :
    dB.start j idx 0 = (idx (ix3 (j 0) (j 1) (0 : Fin 2))).toInt := by
  unfold ScatterDims.start
  rw [dif_pos (show (0 : Fin S6000x4000.rank) ∈ dB.scatterDimsToOperandDims by decide), dB_siIdx]
  rfl

theorem dB_start1 {w : Nat} (j : S6000x2.Idx) (idx : IVec S6000x2x2 w) :
    dB.start j idx 1 = (idx (ix3 (j 0) (j 1) (1 : Fin 2))).toInt := by
  unfold ScatterDims.start
  rw [dif_pos (show (1 : Fin S6000x4000.rank) ∈ dB.scatterDimsToOperandDims by decide), dB_siIdx]
  rfl

theorem dB_window0 (j : S6000x2.Idx) : dB.window j 0 = 0 := by
  unfold ScatterDims.window
  rw [dif_neg (show ¬ (0 : Fin S6000x4000.rank) ∈ dB.sKept by decide)]

theorem dB_window1 (j : S6000x2.Idx) : dB.window j 1 = 0 := by
  unfold ScatterDims.window
  rw [dif_neg (show ¬ (1 : Fin S6000x4000.rank) ∈ dB.sKept by decide)]

/-- Where an update lands: the row and the column are the signed values of its two index words, when they name an entry. -/
theorem dB_resultIdx {w : Nat} (j : S6000x2.Idx) (idx : IVec S6000x2x2 w) (e : Fin 6000) (n : Fin 4000) :
    dB.resultIdx? j idx = some (ix2 e n) ↔
      (idx (ix3 (j 0) (j 1) (0 : Fin 2))).toInt = (e.val : Int) ∧ (idx (ix3 (j 0) (j 1) (1 : Fin 2))).toInt = (n.val : Int) := by
  unfold ScatterDims.resultIdx?
  constructor
  · intro h
    split at h
    · next hall =>
      have hf := Option.some.inj h
      have h0 := congrArg Fin.val (congrFun hf 0)
      have h1 := congrArg Fin.val (congrFun hf 1)
      simp only [dB_start0, dB_start1, dB_window0, dB_window1] at h0 h1
      have a0 := (hall 0).1
      have a1 := (hall 1).1
      rw [dB_start0, dB_window0] at a0
      rw [dB_start1, dB_window1] at a1
      have e0 : ((ix2 e n : S6000x4000.Idx) 0).val = e.val := rfl
      have e1 : ((ix2 e n : S6000x4000.Idx) 1).val = n.val := rfl
      rw [e0] at h0
      rw [e1] at h1
      simp at a0 a1 h0 h1
      omega
    · exact absurd h (by simp)
  · rintro ⟨h0, h1⟩
    have hall : ∀ a, 0 ≤ dB.start j idx a + dB.window j a ∧ dB.start j idx a + dB.window j a < S6000x4000.size a := by
      intro a
      match a with
      | ⟨0, _⟩ =>
        show 0 ≤ dB.start j idx 0 + dB.window j 0 ∧ dB.start j idx 0 + dB.window j 0 < 6000
        rw [dB_start0, dB_window0, h0]; have := e.isLt; omega
      | ⟨1, _⟩ =>
        show 0 ≤ dB.start j idx 1 + dB.window j 1 ∧ dB.start j idx 1 + dB.window j 1 < 4000
        rw [dB_start1, dB_window1, h1]; have := n.isLt; omega
    rw [dif_pos hall]
    congr 1
    funext a
    apply Fin.ext
    match a with
    | ⟨0, _⟩ =>
      show (dB.start j idx 0 + dB.window j 0).toNat = e.val
      rw [dB_start0, dB_window0, h0]; simp
    | ⟨1, _⟩ =>
      show (dB.start j idx 1 + dB.window j 1).toNat = n.val
      rw [dB_start1, dB_window1, h1]; simp

/-- The edge-number column of the index array: edge `e`'s number, which is never negative, so it is not shifted. -/
theorem v30_at (e : Fin 6000) (k : Fin 2) :
    val_main_v30 (F := Ideal) (ix3 e k (0 : Fin 1)) = BitVec.ofNat 32 e.val := by
  rw [val_main_v30_apply, val_main_v29_apply, val_main_v23_apply, val_main_v20_apply, val_main_v19_apply, val_main_c_apply,
    val_main_v17_apply, val_main_v16_apply]
  have h0 : 0 ≤ (BitVec.ofNat 32 e.val).toInt := by rw [toInt_ofNat_small _ e.isLt]; omega
  exact select_slt_zero _ _ _ h0

/-- The node column of the index array: end point `k` of edge `e`, which names a node, so it is not shifted. -/
theorem v31_at (x1 : IVec Cert.Spec.SEi 32) (hr : Cert.Spec.InRange x1) (e : Fin 6000) (k : Fin 2) :
    val_main_v31 (F := Ideal) x1 (ix3 e k (0 : Fin 1)) = x1 (ix2 k e) := by
  rw [val_main_v31_apply, val_main_v28_apply, val_main_v25_apply, val_main_v24_apply, val_main_c_7_apply,
    val_main_v18_apply]
  have hx : x1 (idx_main_v18 (idx_main_v31 (ix3 e k (0 : Fin 1)))) = x1 (ix2 k e) := by
    congr 1
    funext a
    apply Fin.ext
    match a with
    | ⟨0, _⟩ => rfl
    | ⟨1, _⟩ => rfl
  rw [hx, select_slt_zero _ _ _ (hr k e).1]

/-- The index array's first component is the edge-number column. -/
theorem v32_at0 (x1 : IVec Cert.Spec.SEi 32) (e : Fin 6000) (k : Fin 2) :
    val_main_v32 (F := Ideal) x1 (ix3 e k (0 : Fin 2)) = val_main_v30 (F := Ideal) (ix3 e k (0 : Fin 1)) := by
  unfold val_main_v32
  exact concatenate_pair_apply_left (s₁ := S6000x2x1) (s₂ := S6000x2x1) (2 : Fin S6000x2x2.rank) _ _ _ (ix3 e k (0 : Fin 2)) rfl (ix3 e k (0 : Fin 1))
    (fun b => match b with
      | ⟨0, _⟩ => rfl
      | ⟨1, _⟩ => rfl
      | ⟨2, _⟩ => rfl)

/-- The index array's second component is the node column. -/
theorem v32_at1 (x1 : IVec Cert.Spec.SEi 32) (e : Fin 6000) (k : Fin 2) :
    val_main_v32 (F := Ideal) x1 (ix3 e k (1 : Fin 2)) = val_main_v31 (F := Ideal) x1 (ix3 e k (0 : Fin 1)) := by
  unfold val_main_v32
  exact concatenate_pair_apply_right (s₁ := S6000x2x1) (s₂ := S6000x2x1) (2 : Fin S6000x2x2.rank) _ _ _ (ix3 e k (1 : Fin 2)) rfl rfl (ix3 e k (0 : Fin 1))
    (fun b => match b with
      | ⟨0, _⟩ => fun _ => rfl
      | ⟨1, _⟩ => fun _ => rfl
      | ⟨2, _⟩ => fun h => absurd rfl h)
    rfl

/-- The same, at an update given by its coordinates. -/
theorem dB_resultIdx' {w : Nat} (e' : Fin 6000) (k : Fin 2) (idx : IVec S6000x2x2 w) (e : Fin 6000) (n : Fin 4000) :
    dB.resultIdx? (ix2 e' k) idx = some (ix2 e n) ↔
      (idx (ix3 e' k (0 : Fin 2))).toInt = (e.val : Int) ∧ (idx (ix3 e' k (1 : Fin 2))).toInt = (n.val : Int) :=
  dB_resultIdx (ix2 e' k) idx e n

/-- Every update of the overwriting scatter carries the value one. -/
theorem v33_at (j : S6000x2.Idx) : val_main_v33 (F := Ideal) j = Cert.Spec.one := by
  rw [val_main_v33_apply, val_main_cst_9_apply]
  rfl

/-- The overwriting scatter's operand is zero everywhere. -/
theorem v15_at (i : S6000x4000.Idx) : val_main_v15 (F := Ideal) i = Cert.Spec.zero := by
  rw [val_main_v15_apply, val_main_cst_5_apply]
  rfl

/-- Update `(e', k)` lands at row `e'` and at the column end point `k` of edge `e'` names. -/
theorem lands_iff (x1 : IVec Cert.Spec.SEi 32) (hr : Cert.Spec.InRange x1) (e' : Fin 6000) (k : Fin 2) (e : Fin 6000) (n : Fin 4000) :
    dB.resultIdx? (ix2 e' k) (val_main_v32 (F := Ideal) x1) = some (ix2 e n) ↔
      e' = e ∧ x1 (ix2 k e') = BitVec.ofNat 32 n.val := by
  rw [dB_resultIdx', v32_at0, v30_at, v32_at1, v31_at x1 hr, toInt_ofNat_small _ e'.isLt,
    toInt_eq_iff _ _ (by have := n.isLt; omega)]
  constructor
  · rintro ⟨h0, h1⟩
    exact ⟨Fin.ext (by exact_mod_cast h0), h1⟩
  · rintro ⟨h0, h1⟩
    exact ⟨by rw [h0], h1⟩

/-- The incidence matrix: one where node `n` is an end point of edge `e`, zero elsewhere. -/
theorem v34_apply (x1 : IVec Cert.Spec.SEi 32) (hr : Cert.Spec.InRange x1) (e : Fin 6000) (n : Fin 4000) :
    val_main_v34 (F := Ideal) x1 (ix2 e n) = Cert.Spec.hR x1 e n := by
  unfold val_main_v34
  rw [scatter_const_apply dB _ _ _ Cert.Spec.one v33_at, v15_at]
  unfold Cert.Spec.hR
  have key : (∃ j : S6000x2.Idx, dB.resultIdx? j (val_main_v32 (F := Ideal) x1) = some (ix2 e n)) ↔
      (Cert.Spec.src x1 e = BitVec.ofNat 32 n.val ∨ Cert.Spec.dst x1 e = BitVec.ofNat 32 n.val) := by
    constructor
    · rintro ⟨j, hj⟩
      obtain ⟨e', k, rfl⟩ : ∃ (e' : Fin 6000) (k : Fin 2), j = ix2 e' k := ⟨j 0, j 1, eq_ix2 j⟩
      obtain ⟨he, hk⟩ := (lands_iff x1 hr e' k e n).1 hj
      clear hj
      subst he
      have hk2 : k = 0 ∨ k = 1 := by omega
      rcases hk2 with rfl | rfl
      · exact Or.inl hk
      · exact Or.inr hk
    · rintro (h | h)
      · exact ⟨ix2 e (0 : Fin 2), (lands_iff x1 hr e 0 e n).2 ⟨rfl, h⟩⟩
      · exact ⟨ix2 e (1 : Fin 2), (lands_iff x1 hr e 1 e n).2 ⟨rfl, h⟩⟩
  by_cases h : Cert.Spec.src x1 e = BitVec.ofNat 32 n.val ∨ Cert.Spec.dst x1 e = BitVec.ofNat 32 n.val
  · rw [if_pos (key.2 h), if_pos h]
  · rw [if_neg (fun h' => h (key.1 h')), if_neg h]

end Cert.ReferenceIdeal.RefScatter

end
-- ==== Proof.RefVal.lean ====
/-
  The reference's result as a closed formula of the arguments, over the extended reals.

  The reference scatters the messages `log (1 - pw e + eps)` onto their target nodes (an accumulating scatter: node `n`
  ends at zero plus the messages of the edges whose target is `n`), builds the edge-node incidence matrix by scattering
  the value one at `(e, src e)` and `(e, dst e)` onto zeros (a negative index would be shifted by the node count first;
  for indices that name a node it is left alone), multiplies it with its transpose, keeps the strictly upper part, and
  forms `(p T) pᵀ`. Read index by index this is `Cert.Spec.resR`.
-/
import proofs.«413957_j26843545600697_1_alg».proof.Proof.Gen.ReferenceIdeal.Read
import proofs.«413957_j26843545600697_1_alg».proof.Proof.RefScatter
import proofs.«413957_j26843545600697_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read

/-- The mean's numerator and divisor: zero plus the sum over the nodes of `exp (ls n) * 9600`, divided by the node count.
    The sum over the column's index pairs is the sum over the nodes, the second axis being a single point. -/
theorem mean_eq (x1 : IVec Cert.Spec.SEi 32) (x2 : FVec Ideal Cert.Spec.SEf .f32) (hr : Cert.Spec.InRange x1) (i : S_.Idx) :
    val_main_v14 (F := Ideal) x1 x2 i
      = Ideal.div (Cert.Spec.zero + ∑ n : Fin 4000, Ideal.exp (Cert.Spec.lsR x1 x2 n) * Cert.Spec.c9600) Cert.Spec.c4000 := by
  rw [val_main_v14_apply, val_main_v13_apply, val_main_cst_3_apply, val_main_cst_4_apply]
  simp only [Ideal.hostDivf_def, Ideal.ofBits_def]
  rw [ValueIdx.sum_idx2]
  unfold Cert.Spec.zero Cert.Spec.c4000 Cert.Spec.c9600
  refine congrArg (fun s => Ideal.div (Ideal.ofBits FTy.f32 0#32 + s) _) ?_
  refine Finset.sum_congr rfl fun n _ => ?_
  rw [Fin.sum_univ_one, val_main_v12_apply, val_main_v10_apply, val_main_v11_apply, val_main_cst_2_apply,
    RefScatter.v9_apply x1 x2 hr n]
  rfl

/-- The number of graphs: the batch array's signed maximum plus one, as a real. -/
theorem ng_eq (x3 : IVec Cert.Spec.SBt 32) (i : S1x1.Idx) :
    val_main_v45 (F := Ideal) x3 i = Cert.Spec.ngOf x3 reducesTo_S4000_S_d0 h_S_ := by
  rw [val_main_v45_apply]
  unfold Cert.Spec.ngOf val_main_v44 val_main_v43 val_main_v42 val_main_c_10 val_main_c_11
  rfl

/-- The upper-triangle test on the words of two edge numbers: "row at least column" is the order of the numbers. -/
theorem triu_cond (e f : Fin 6000) :
    IntOp.cmpi .sge (IntOp.addi (BitVec.ofNat 32 e.val) 0#32) (BitVec.ofNat 32 f.val)
      = if f.val ≤ e.val then 1#1 else 0#1 := by
  have he := e.isLt
  have hf := f.isLt
  unfold IntOp.cmpi IntOp.addi
  rw [BitVec.add_zero]
  show BitVec.ofBool ((BitVec.ofNat 32 f.val).sle (BitVec.ofNat 32 e.val)) = _
  rw [BitVec.sle_eq_decide]
  have h1 : (BitVec.ofNat 32 e.val).toInt = (e.val : Int) := by
    rw [BitVec.toInt_eq_toNat_cond, BitVec.toNat_ofNat]; omega
  have h2 : (BitVec.ofNat 32 f.val).toInt = (f.val : Int) := by
    rw [BitVec.toInt_eq_toNat_cond, BitVec.toNat_ofNat]; omega
  rw [h1, h2]
  by_cases h : f.val ≤ e.val
  · rw [if_pos h, decide_eq_true (by omega)]; rfl
  · rw [if_neg h, decide_eq_false (by omega)]; rfl

/-- `H Hᵀ` at `(e, f)`: the product's sum over the nodes, both factors the incidence matrix. -/
theorem v36_at (x1 : IVec Cert.Spec.SEi 32) (hr : Cert.Spec.InRange x1) (e f : Fin 6000) :
    val_main_v36 (F := Ideal) x1 (ix2 e f) = Cert.Spec.aR x1 e f := by
  rw [val_main_v36_apply]
  unfold Cert.Spec.aR
  refine Finset.sum_congr rfl fun n _ => ?_
  rw [val_main_v35_apply]
  have e1 : lidx_main_v36 (ix2 e f) n = ix2 e n :=
    funext fun a => Fin.ext (by match a with | ⟨0, _⟩ => rfl | ⟨1, _⟩ => rfl)
  have e2 : idx_main_v35 (ridx_main_v36 (ix2 e f) n) = ix2 f n :=
    funext fun a => Fin.ext (by match a with | ⟨0, _⟩ => rfl | ⟨1, _⟩ => rfl)
  rw [e1, e2, RefScatter.v34_apply x1 hr e n, RefScatter.v34_apply x1 hr f n]

/-- Its strictly upper part at `(e, f)`. -/
theorem v37_at (x1 : IVec Cert.Spec.SEi 32) (hr : Cert.Spec.InRange x1) (e f : Fin 6000) :
    val_main_v37 (F := Ideal) x1 (ix2 e f) = Cert.Spec.tR x1 e f := by
  rw [val_main_v37_apply, val_main_call0_v4_apply, val_main_call0_v2_apply, val_main_call0_v0_apply,
    val_main_call0_v1_apply, val_main_call0_c_apply, val_main_call0_v3_apply, val_main_call0_v5_apply,
    val_main_call0_cst_apply, v36_at x1 hr e f]
  show Scalar.select (IntOp.cmpi .sge (IntOp.addi (BitVec.ofNat 32 e.val) 0#32) (BitVec.ofNat 32 f.val)) _ _ = _
  rw [triu_cond]
  unfold Cert.Spec.tR
  by_cases h : f.val ≤ e.val
  · rw [if_pos h, if_pos h, select_one]; rfl
  · rw [if_neg h, if_neg h, select_zero]

/-- The row vector `p T` at `f`. -/
theorem v39_at (x1 : IVec Cert.Spec.SEi 32) (x2 : FVec Ideal Cert.Spec.SEf .f32) (hr : Cert.Spec.InRange x1) (f : Fin 6000) :
    val_main_v39 (F := Ideal) x1 x2 (ix2 (0 : Fin 1) f) = ∑ e : Fin 6000, Cert.Spec.pw x2 e * Cert.Spec.tR x1 e f := by
  rw [val_main_v39_apply]
  refine Finset.sum_congr rfl fun e _ => ?_
  rw [val_main_v38_apply]
  have e1 : idx_main_v38 (lidx_main_v39 (ix2 (0 : Fin 1) f) e) = ix2 e (0 : Fin 1) :=
    funext fun a => Fin.ext (by match a with | ⟨0, _⟩ => rfl | ⟨1, _⟩ => rfl)
  have e2 : ridx_main_v39 (ix2 (0 : Fin 1) f) e = ix2 e f :=
    funext fun a => Fin.ext (by match a with | ⟨0, _⟩ => rfl | ⟨1, _⟩ => rfl)
  rw [e1, e2, v37_at x1 hr e f]
  rfl

/-- The quadratic form `(p T) pᵀ`. -/
theorem v41_at (x1 : IVec Cert.Spec.SEi 32) (x2 : FVec Ideal Cert.Spec.SEf .f32) (hr : Cert.Spec.InRange x1) (i : S1x1.Idx) :
    val_main_v41 (F := Ideal) x1 x2 i = Cert.Spec.l3R x1 x2 := by
  obtain ⟨a, b, rfl⟩ : ∃ (a b : Fin 1), i = ix2 a b := ⟨i 0, i 1, eq_ix2 i⟩
  obtain rfl : a = 0 := Subsingleton.elim _ _
  obtain rfl : b = 0 := Subsingleton.elim _ _
  rw [val_main_v41_apply]
  unfold Cert.Spec.l3R
  refine Finset.sum_congr rfl fun f _ => ?_
  rw [val_main_v40_apply, val_main_v38_apply]
  have e1 : lidx_main_v41 (ix2 (0 : Fin 1) (0 : Fin 1)) f = ix2 (0 : Fin 1) f :=
    funext fun a => Fin.ext (by match a with | ⟨0, _⟩ => rfl | ⟨1, _⟩ => rfl)
  have e2 : idx_main_v38 (idx_main_v40 (ridx_main_v41 (ix2 (0 : Fin 1) (0 : Fin 1)) f)) = ix2 f (0 : Fin 1) :=
    funext fun a => Fin.ext (by match a with | ⟨0, _⟩ => rfl | ⟨1, _⟩ => rfl)
  rw [e1, e2, v39_at x1 x2 hr f]
  rfl

variable (m : (ℓ : Loc nD τ sig) → Buf (Elt Ideal) ℓ)

/-- The arguments as the specification reads them. -/
abbrev eiOf (c : Dev nD) : IVec Cert.Spec.SEi 32 := m ((c.tc : Thread nD τ).loc main_arg1)
abbrev efOf (c : Dev nD) : FVec Ideal Cert.Spec.SEf .f32 := m ((c.tc : Thread nD τ).loc main_arg2)
abbrev btOf (c : Dev nD) : IVec Cert.Spec.SBt 32 := m ((c.tc : Thread nD τ).loc main_arg3)

/-- The reference's result as a closed formula of the arguments. -/
abbrev resultR (c : Dev nD) : EReal :=
  Cert.Spec.resR (eiOf m c) (efOf m c) (Cert.Spec.ngOf (btOf m c) reducesTo_S4000_S_d0 h_S_)

/-- Where every index names a node, the reference's composed term is the closed formula. -/
theorem res_eq (c : Dev nD) (hr : Cert.Spec.InRange (eiOf m c)) :
    Cert.ReferenceIdeal.Value.res_main_v50 (F := Ideal) m c = fun _ => resultR m c := by
  rw [Read.val_main_v50_eq]
  funext i
  rw [val_main_v50_apply, val_main_v49_apply, val_main_v48_apply, val_main_v47_apply, val_main_cst_12_apply,
    val_main_v46_apply, mean_eq (eiOf m c) (efOf m c) hr, v41_at (eiOf m c) (efOf m c) hr, ng_eq (btOf m c)]
  rfl

end Cert.ReferenceIdeal.RefVal

end
-- ==== Proof.Math.lean ====
/-
  The two closed formulas agree.

  Write `H e n` for the incidence indicator (1 where node `n` is an end point of edge `e`, else 0), `A = H Hᵀ`, and
  `q n = ∑ e, H e n * pw e`. `A` is symmetric, so over the reals
      ∑ n, (q n)² = ∑ e f, pw e * pw f * A e f = 2 * ∑ e < f, pw e * pw f * A e f + ∑ e, (pw e)² * A e e,
  and `A e e = ∑ n, H e n` is the number of distinct end points of `e` — 1 for a self loop, else 2 — because both end
  points name nodes. Hence the strictly upper part of the quadratic form is `(∑ n, (q n)² - ∑ e, deg e * (pw e)²) / 2`.
  The weights are real numbers, so every sum here is a sum of reals and the laws of the reals apply. The log-scores need
  no such law: both sides add the same messages, once as `indicator * message`, once as a sum over the matching edges.
-/
import proofs.«413957_j26843545600697_1_alg».proof.Proof.Spec
import Idealize.ShloMosaic.PureOps.Ideal.Laws
import Mathlib.Algebra.BigOperators.Ring.Finset
import Mathlib.Algebra.Order.BigOperators.Group.Finset
import Mathlib.Data.Real.Basic
import Mathlib.Data.EReal.Basic
import Mathlib.Data.EReal.Operations
import Mathlib.Tactic.Ring
import Mathlib.Tactic.Linarith

noncomputable section

open scoped BigOperators

namespace Cert.Spec

open Idealize.ShloMosaic Idealize.ShloMosaic.ValueIdx

/-! ## The identity over the reals, on abstract finite index sets -/

section reals

variable {ι ν : Type} [Fintype ι] [LinearOrder ι] [Fintype ν]

/-- A double sum of a symmetric function is twice its strictly upper part plus its diagonal. -/
theorem sum_sum_symm (g : ι → ι → ℝ) (hg : ∀ e f, g e f = g f e) :
    ∑ e, ∑ f, g e f = 2 * ∑ f, ∑ e, (if f ≤ e then 0 else g e f) + ∑ e, g e e := by
  have split : ∀ e f, g e f
      = (if f ≤ e then 0 else g e f) + (if e = f then g e f else 0) + (if e ≤ f then 0 else g e f) := by
    intro e f
    rcases lt_trichotomy e f with h | h | h
    · rw [if_neg (not_le.2 h), if_neg (ne_of_lt h), if_pos (le_of_lt h)]; ring
    · subst h; simp
    · rw [if_pos (le_of_lt h), if_neg (ne_of_gt h), if_neg (not_le.2 h)]; ring
  have lower : ∑ e, ∑ f, (if e ≤ f then 0 else g e f) = ∑ f, ∑ e, (if f ≤ e then 0 else g e f) := by
    apply Finset.sum_congr rfl; intro e _
    apply Finset.sum_congr rfl; intro f _
    rw [hg e f]
  have diag : ∑ e, ∑ f, (if e = f then g e f else 0) = ∑ e, g e e := by
    apply Finset.sum_congr rfl; intro e _
    rw [Finset.sum_ite_eq]; simp
  calc ∑ e, ∑ f, g e f
      = ∑ e, ∑ f, ((if f ≤ e then 0 else g e f) + (if e = f then g e f else 0) + (if e ≤ f then 0 else g e f)) := by
        apply Finset.sum_congr rfl; intro e _
        apply Finset.sum_congr rfl; intro f _
        exact split e f
    _ = ∑ e, ∑ f, (if f ≤ e then 0 else g e f) + ∑ e, ∑ f, (if e = f then g e f else 0)
          + ∑ e, ∑ f, (if e ≤ f then 0 else g e f) := by
        simp only [Finset.sum_add_distrib]
    _ = 2 * ∑ f, ∑ e, (if f ≤ e then 0 else g e f) + ∑ e, g e e := by
        rw [lower, diag, Finset.sum_comm (f := fun e f => if f ≤ e then 0 else g e f)]; ring

/-- The strictly upper part of the quadratic form `p (H Hᵀ) pᵀ` of a 0-1 matrix `H`, through the column sums. -/
theorem upper_quad (H : ι → ν → ℝ) (hH : ∀ e n, H e n * H e n = H e n) (p : ι → ℝ) :
    ∑ f, (∑ e, p e * (if f ≤ e then 0 else ∑ n, H e n * H f n)) * p f
      = ((0 + ∑ n, (∑ e, H e n * p e) * (∑ e, H e n * p e)) - (0 + ∑ e, (∑ n, H e n) * (p e * p e))) * (1 / 2) := by
  have sq : ∑ n, (∑ e, H e n * p e) * (∑ e, H e n * p e) = ∑ e, ∑ f, p e * p f * ∑ n, H e n * H f n := by
    calc ∑ n, (∑ e, H e n * p e) * (∑ e, H e n * p e)
        = ∑ n, ∑ e, ∑ f, (H e n * p e) * (H f n * p f) := by
          apply Finset.sum_congr rfl; intro n _
          rw [Finset.sum_mul_sum]
      _ = ∑ e, ∑ n, ∑ f, (H e n * p e) * (H f n * p f) := Finset.sum_comm
      _ = ∑ e, ∑ f, ∑ n, (H e n * p e) * (H f n * p f) := by
          apply Finset.sum_congr rfl; intro e _
          exact Finset.sum_comm
      _ = ∑ e, ∑ f, p e * p f * ∑ n, H e n * H f n := by
          apply Finset.sum_congr rfl; intro e _
          apply Finset.sum_congr rfl; intro f _
          rw [Finset.mul_sum]
          apply Finset.sum_congr rfl; intro n _
          ring
  have symm : ∑ e, ∑ f, p e * p f * ∑ n, H e n * H f n
      = 2 * ∑ f, ∑ e, (if f ≤ e then 0 else p e * p f * ∑ n, H e n * H f n) + ∑ e, p e * p e * ∑ n, H e n * H e n :=
    sum_sum_symm (fun e f => p e * p f * ∑ n, H e n * H f n) (by
      intro e f
      have : ∑ n, H e n * H f n = ∑ n, H f n * H e n := by
        apply Finset.sum_congr rfl; intro n _; ring
      simp only [this]; ring)
  have up : ∑ f, (∑ e, p e * (if f ≤ e then 0 else ∑ n, H e n * H f n)) * p f
      = ∑ f, ∑ e, (if f ≤ e then 0 else p e * p f * ∑ n, H e n * H f n) := by
    apply Finset.sum_congr rfl; intro f _
    rw [Finset.sum_mul]
    apply Finset.sum_congr rfl; intro e _
    split_ifs <;> ring
  have dg : ∑ e, p e * p e * ∑ n, H e n * H e n = ∑ e, (∑ n, H e n) * (p e * p e) := by
    apply Finset.sum_congr rfl; intro e _
    simp only [hH]; ring
  rw [up, sq, symm, dg]; ring

end reals

/-! ## The literals and the coercion of the reals -/

theorem zero_eq : zero = 0 := Ideal.ofBits_zero_f32

theorem one_eq : one = 1 := by
  unfold one; simp [Ideal.ofBits, Ideal.ieee, -EReal.coe_mul]; norm_num

theorem two_eq : two = ((2 : ℝ) : EReal) := by
  unfold two; simp [Ideal.ofBits, Ideal.ieee, -EReal.coe_mul]; norm_num

theorem half_eq : half = ((1 / 2 : ℝ) : EReal) := by
  unfold half; simp [Ideal.ofBits, Ideal.ieee, -EReal.coe_mul]; norm_num

/-- The coercion of the reals passes through finite sums. -/
theorem coe_sum {κ : Type} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Words that name nodes -/

/-- A word whose signed value lies in `[0, 4000)` has that unsigned value. -/
theorem toNat_lt_of_range (x : BitVec 32) (h : 0 ≤ x.toInt ∧ x.toInt < 4000) : x.toNat < 4000 := by
  rw [BitVec.toInt_eq_toNat_cond] at h
  split_ifs at h <;> omega

/-- A word is the word of a small number exactly when that number is its value. -/
theorem eq_ofNat_iff (x : BitVec 32) (n : ℕ) (hn : n < 4000) : x = BitVec.ofNat 32 n ↔ x.toNat = n := by
  constructor
  · intro h; rw [h, BitVec.toNat_ofNat]; omega
  · intro h; apply BitVec.eq_of_toNat_eq; rw [BitVec.toNat_ofNat, h]; omega

/-- Two marked nodes: one node if they coincide, else two. -/
theorem sum_pair (a b : Fin 4000) : ∑ n : Fin 4000, (if n = a ∨ n = b then (1 : ℝ) else 0) = if a = b then 1 else 2 := by
  by_cases hab : a = b
  · subst hab; simp
  · rw [if_neg hab]
    have : ∀ n : Fin 4000, (if n = a ∨ n = b then (1 : ℝ) else 0) = (if n = a then 1 else 0) + (if n = b then 1 else 0) := by
      intro n
      by_cases h1 : n = a
      · have h2 : n ≠ b := fun h => hab (h1.symm.trans h)
        simp [h1, h2, hab]
      · by_cases h2 : n = b
        · have h1' : b ≠ a := fun h => hab h.symm
          simp [h2, h1']
        · simp [h1, h2]
    simp only [this, Finset.sum_add_distrib, Finset.sum_ite_eq', Finset.mem_univ, if_true]
    norm_num

variable (ei : IVec SEi 32) (ef : FVec Ideal SEf .f32)

/-- The incidence indicator as a real number. -/
def hReal (e : Fin 6000) (n : Fin 4000) : ℝ :=
  if src ei e = BitVec.ofNat 32 n.val ∨ dst ei e = BitVec.ofNat 32 n.val then 1 else 0

theorem hR_eq (e : Fin 6000) (n : Fin 4000) : hR ei e n = (hReal ei e n : EReal) := by
  unfold hR hReal
  split_ifs
  · rw [one_eq, EReal.coe_one]
  · rw [zero_eq, EReal.coe_zero]

theorem hReal_sq (e : Fin 6000) (n : Fin 4000) : hReal ei e n * hReal ei e n = hReal ei e n := by
  unfold hReal; split_ifs <;> simp

/-- The clipped sum of the two indicators is the incidence indicator. -/
theorem min_ind_eq (a b c : BitVec 32) :
    min (ind a c + ind b c) one = ((if a = c ∨ b = c then 1 else 0 : ℝ) : EReal) := by
  unfold ind; rw [one_eq]
  by_cases ha : a = c <;> by_cases hb : b = c <;> simp [ha, hb]
  exact le_add_of_nonneg_right zero_le_one

/-- The number of distinct end points of an edge is its row sum. -/
theorem sum_hReal (hr : InRange ei) (e : Fin 6000) :
    ∑ n : Fin 4000, hReal ei e n = if src ei e = dst ei e then 1 else 2 := by
  have hs : (src ei e).toNat < 4000 := toNat_lt_of_range _ (hr 0 e)
  have hd : (dst ei e).toNat < 4000 := toNat_lt_of_range _ (hr 1 e)
  have hH : ∀ n : Fin 4000, hReal ei e n
      = if n = ⟨(src ei e).toNat, hs⟩ ∨ n = ⟨(dst ei e).toNat, hd⟩ then 1 else 0 := by
    intro n
    have e1 : src ei e = BitVec.ofNat 32 n.val ↔ n = ⟨(src ei e).toNat, hs⟩ := by
      rw [eq_ofNat_iff _ _ n.isLt, Fin.ext_iff]; exact eq_comm
    have e2 : dst ei e = BitVec.ofNat 32 n.val ↔ n = ⟨(dst ei e).toNat, hd⟩ := by
      rw [eq_ofNat_iff _ _ n.isLt, Fin.ext_iff]; exact eq_comm
    unfold hReal
    simp only [e1, e2]
  have hsd : (src ei e = dst ei e) ↔ ((⟨(src ei e).toNat, hs⟩ : Fin 4000) = ⟨(dst ei e).toNat, hd⟩) := by
    rw [Fin.ext_iff]; exact (BitVec.toNat_inj).symm
  simp only [hH, sum_pair, hsd]

/-! ## The two forms over real weights -/

theorem qK_eq (p : Fin 6000 → ℝ) (hp : ∀ e, pw ef e = (p e : EReal)) (n : Fin 4000) :
    qK ei ef n.val = ((∑ e, hReal ei e n * p e : ℝ) : EReal) := by
  unfold qK
  rw [coe_sum]
  apply Finset.sum_congr rfl; intro e _
  rw [min_ind_eq, hp e, EReal.coe_mul]
  rfl

theorem degK_eq (hr : InRange ei) (e : Fin 6000) : degK ei e = ((∑ n : Fin 4000, hReal ei e n : ℝ) : EReal) := by
  rw [sum_hReal ei hr e]; unfold degK
  split_ifs
  · rw [one_eq, EReal.coe_one]
  · rw [two_eq]

theorem tR_eq (e f : Fin 6000) :
    tR ei e f = ((if f ≤ e then 0 else ∑ n, hReal ei e n * hReal ei f n : ℝ) : EReal) := by
  unfold tR
  by_cases h : f.val ≤ e.val
  · rw [if_pos h, if_pos (Fin.le_def.2 h), zero_eq, EReal.coe_zero]
  · rw [if_neg h, if_neg (fun h' => h (Fin.le_def.1 h'))]
    unfold aR
    rw [coe_sum]
    apply Finset.sum_congr rfl; intro n _
    rw [EReal.coe_mul, hR_eq, hR_eq]

theorem l3R_eq (p : Fin 6000 → ℝ) (hp : ∀ e, pw ef e = (p e : EReal)) :
    l3R ei ef
      = ((∑ f, (∑ e, p e * (if f ≤ e then 0 else ∑ n, hReal ei e n * hReal ei f n)) * p f : ℝ) : EReal) := by
  unfold l3R
  simp only [tR_eq, hp, coe_sum, EReal.coe_mul]

/-! ## The interfaces -/

/-- A node's log-score is the same sum on both sides. -/
theorem lsK_eq_lsR (n : Fin 4000) : lsK ei ef n.val = lsR ei ef n := by
  unfold lsK lsR
  rw [zero_eq, zero_add]
  apply Finset.sum_congr rfl; intro e _
  unfold ind
  split_ifs
  · rw [one_mul]
  · rw [zero_mul]

/-- The kernel's half difference of squares is the reference's quadratic form. -/
theorem loss3_eq (hr : InRange ei) (hf : Finite ef) :
    ((zero + ∑ n : Fin 4000, qK ei ef n.val * qK ei ef n.val)
        - (zero + ∑ e : Fin 6000, degK ei e * (pw ef e * pw ef e))) * half = l3R ei ef := by
  choose p hp using hf
  rw [l3R_eq ei ef p hp, upper_quad (hReal ei) (hReal_sq ei) p]
  simp only [qK_eq ei ef p hp, degK_eq ei hr, hp, zero_eq, half_eq, EReal.coe_sub, EReal.coe_mul, EReal.coe_add,
    coe_sum, EReal.coe_zero]

/-- The two results agree where every index names a node and every weight is a real number. -/
theorem resK_eq_resR (hr : InRange ei) (hf : Finite ef) (ng : EReal) : resK ei ef ng = resR ei ef ng := by
  unfold resK resR
  rw [loss3_eq ei ef hr hf]
  simp only [lsK_eq_lsR]

end Cert.Spec

end
-- ==== Proof.PreDecode.lean ====
/-
  The precondition read back: every weight is a real number and every index names a node.

  The precondition is the conjunction of four `all`s: `|x| < +inf` over the node features, the same over the weights,
  `0 ≤ index` and `index < 4000` over the index array, each a reduction by `and` that came out 1, so each holds at
  every element. An extended real whose absolute value lies below `+inf` is neither infinity: it is a real number.
-/
import proofs.«413957_j26843545600697_1_alg».proof.Defs
import proofs.«413957_j26843545600697_1_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreDecode

open Idealize.ShloMosaic Idealize.ShloMosaic.ValueIdx

instance : Subsingleton Cert.Pre_finite_inputs.S_.Idx := ⟨fun a b => funext fun d => d.elim0⟩

variable [hF : Cert.Pre_finite_inputs.Facts]

/-- An extended real whose absolute value is below `+inf` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition's four conjuncts, element by element. -/
theorem decode (a0 : FVec Ideal Cert.Pre_finite_inputs.S4000 .f32) (a1 : IVec Cert.Pre_finite_inputs.S2x6000 32)
    (a2 : FVec Ideal Cert.Pre_finite_inputs.S6000x1 .f32) (a3 : IVec Cert.Pre_finite_inputs.S4000 32)
    (h : Cert.Pre_finite_inputs.fn (F := Ideal) a0 a1 a2 a3 = fun _ => 1#1) :
    Cert.Spec.InRange a1 ∧ Cert.Spec.Finite a2 := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  have hb : ∀ (w : BitVec 32) (j : Cert.Pre_finite_inputs.S2x6000.Idx),
      broadcastInDim Cert.Pre_finite_inputs.S2x6000 ![] Cert.Pre_finite_inputs.Facts.bcast_S_S2x6000
        (constantI Cert.Pre_finite_inputs.S_ 32 w) j = w := fun w j => by
    rw [StableHlo.Predicate.bcast_scalar _ Cert.Pre_finite_inputs.Facts.h_S_]; rfl
  refine ⟨fun r e => ⟨?_, ?_⟩, fun e => ?_⟩
  · have h := IntOp.cmpi_sge.1 (Host.reduce_andi_all _ _ _ _ _ h3 (ix2 r e))
    rw [hb] at h
    exact h
  · have h := IntOp.cmpi_slt.1 (Host.reduce_andi_all _ _ _ _ _ h4 (ix2 r e))
    rw [hb] at h
    exact h
  · have := Host.reduce_andi_all _ _ _ _ _ h2 (ix2 e (0 : Fin 1))
    exact real_of_abs_lt _ this

end Cert.PreDecode

end
-- ==== Proof.lean ====
/-
  The kernel computes a graph loss over an edge list — for every node the sum of the messages `log (1 - p + eps)` of the
  edges that end in it and the sum of the weights of the edges that touch it, both accumulated edge block by edge block in
  carried accumulators — and closes it on the host as
      mean over the nodes of exp (log-score) * 9600 + 200 * ((∑ q² - ∑ deg * p²) / 2) / (number of graphs).
  The reference scatters the messages onto the nodes, builds the edge-node incidence matrix `H`, and takes the strictly
  upper part of the quadratic form `p (H Hᵀ) pᵀ` in the second summand's place. Over the extended reals, for weights that
  are real numbers and indices that name nodes, the two agree: the quadratic form of a symmetric matrix is twice its
  strictly upper part plus its diagonal, and the diagonal of `H Hᵀ` counts an edge's distinct end points.

  The frames of the two kernel programs are the generated frame certificates; the reference's frame is its run with the
  result dropped; the idealization rewrote nothing. For the value claim the kernel's run ends at `Cert.Spec.resK` of the
  arguments (the accumulators by induction over the grid, then the closing arithmetic), the reference's at
  `Cert.Spec.resR` (its operations read index by index), and the precondition supplies the two hypotheses under which the
  closed formulas are equal.
-/
import proofs.«413957_j26843545600697_1_alg».proof.Defs
import proofs.«413957_j26843545600697_1_alg».proof.Proof.Gen.Kernel
import proofs.«413957_j26843545600697_1_alg».proof.Proof.Gen.Kernel.Frame
import proofs.«413957_j26843545600697_1_alg».proof.Proof.Gen.KernelIdeal
import proofs.«413957_j26843545600697_1_alg».proof.Proof.Gen.KernelIdeal.Frame
import proofs.«413957_j26843545600697_1_alg».proof.Proof.Gen.ReferenceIdeal
import proofs.«413957_j26843545600697_1_alg».proof.Proof.Gen.ReferenceIdeal.Run
import proofs.«413957_j26843545600697_1_alg».proof.Proof.Gen.Pre_finite_inputs
import proofs.«413957_j26843545600697_1_alg».proof.Proof.KHost
import proofs.«413957_j26843545600697_1_alg».proof.Proof.RefVal
import proofs.«413957_j26843545600697_1_alg».proof.Proof.Math
import proofs.«413957_j26843545600697_1_alg».proof.Proof.PreDecode
import Idealize.ShloMosaic.Adequacy
import Idealize.ShloMosaic.Init

noncomputable section

namespace Cert.Proof

open Idealize.ShloMosaic Idealize.SL.Sem

/-- The word-level kernel runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the same extended real: the kernel's closed formula, which under the precondition is the
    reference's. -/
theorem algebraic : Cert.algebraic_KernelIdeal_ReferenceIdeal := by
  intro m ρ m' ρ' hpre hagree
  refine ⟨fun c => (fun _ => Cert.KernelIdeal.KHost.resultK m c), Cert.KernelIdeal.KHost.run m ρ, ?_⟩
  refine (θ_run Cert.ReferenceIdeal.defs _ _).mono (fun _ h c => ⟨(h c).1.trans ?_, (h c).2⟩)
    (Cert.ReferenceIdeal.Value.run (F := Ideal) m' ρ')
  obtain ⟨hr, hf⟩ := Cert.PreDecode.decode
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (hpre c)
  have e1 : Cert.ReferenceIdeal.RefVal.eiOf m' c = Cert.KernelIdeal.KHost.eiOf m c := (hagree c).2.1
  have e2 : Cert.ReferenceIdeal.RefVal.efOf m' c = Cert.KernelIdeal.KHost.efOf m c := (hagree c).2.2.1
  have e3 : Cert.ReferenceIdeal.RefVal.btOf m' c = Cert.KernelIdeal.KHost.btOf m c := (hagree c).2.2.2
  have hr' : Cert.Spec.InRange (Cert.ReferenceIdeal.RefVal.eiOf m' c) := by rw [e1]; exact hr
  rw [Cert.ReferenceIdeal.RefVal.res_eq m' c hr']
  funext _
  show Cert.Spec.resR (Cert.ReferenceIdeal.RefVal.eiOf m' c) (Cert.ReferenceIdeal.RefVal.efOf m' c)
      (Cert.Spec.ngOf (Cert.ReferenceIdeal.RefVal.btOf m' c) _ _)
    = Cert.Spec.resK (Cert.KernelIdeal.KHost.eiOf m c) (Cert.KernelIdeal.KHost.efOf m c)
      (Cert.Spec.ngOf (Cert.KernelIdeal.KHost.btOf m c) _ _)
  rw [e1, e2, e3]
  exact (Cert.Spec.resK_eq_resR _ _ hr hf _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
